-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x3 : Shape := ⟨2, ![400000, 3]⟩
abbrev S100000x128 : Shape := ⟨2, ![100000, 128]⟩
abbrev S237x128 : Shape := ⟨2, ![237, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S237x128 : S_.BroadcastsInDim S237x128 (![] : Fin 0 → Fin S237x128.rank)
  reducesTo_S237x128_S_d0_1 : S237x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : IVec S400000x3 32) (main_arg1 : FVec F S100000x128 .f32) (main_arg2 : FVec F S237x128 .f32) (main_arg3 : FVec F S128x384 .f32) (main_arg4 : FVec F S128 .f32) (main_arg5 : FVec F S1x128 .f32) (main_arg6 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S237x128 .f32 := Host.absf main_arg2
  let main_cst_0 : FVec F S_ .f32 := constant S_ .f32 0x7F800000#32
  let main_v5 : FVec F S237x128 .f32 := broadcastInDim S237x128 ![] bcast_S_S237x128 main_cst_0
  let main_v6 : IVec S237x128 1 := cmpf .olt main_v4 main_v5
  let main_c_1 : IVec S_ 1 := constantI S_ 1 1#1
  let main_v7 : IVec S_ 1 := (fun x v => Host.reduce IntOp.andi x v reducesTo_S237x128_S_d0_1 h_S_) main_v6 main_c_1
  let main_v8 : IVec S_ 1 := andi main_v3 main_v7
  let main_v9 : FVec F S128x384 .f32 := Host.absf main_arg3
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S400000x3 : Shape := ⟨2, ![400000, 3]⟩
abbrev S100000x128 : Shape := ⟨2, ![100000, 128]⟩
abbrev S237x128 : Shape := ⟨2, ![237, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S400000x1 : Shape := ⟨2, ![400000, 1]⟩
abbrev S400000 : Shape := ⟨1, ![400000]⟩
abbrev S_ : Shape := ⟨0, ![]⟩
abbrev S400000x128 : Shape := ⟨2, ![400000, 128]⟩
abbrev S400000x384 : Shape := ⟨2, ![400000, 384]⟩
abbrev S384x128 : Shape := ⟨2, ![384, 128]⟩
abbrev S4000x384 : Shape := ⟨2, ![4000, 384]⟩
abbrev S4000x128 : Shape := ⟨2, ![4000, 128]⟩
abbrev S4000x1 : Shape := ⟨2, ![4000, 1]⟩
abbrev S4000 : Shape := ⟨1, ![4000]⟩
abbrev S1x1 : Shape := ⟨2, ![1, 1]⟩
abbrev S100000x1 : Shape := ⟨2, ![100000, 1]⟩
abbrev S237x1 : Shape := ⟨2, ![237, 1]⟩

abbrev nBuf : Space → Nat
  | .hbm => 106
  | .vmem => 10
  | .smem => 0
  | _ => 0

abbrev bufTy : (tb : Table) → Fin (tcTables nBuf tb) → BufTy
  | .hbm, ⟨0, _⟩ => ⟨S400000x3, .i32⟩
  | .hbm, ⟨1, _⟩ => ⟨S100000x128, .f32⟩
  | .hbm, ⟨2, _⟩ => ⟨S237x128, .f32⟩
  | .hbm, ⟨3, _⟩ => ⟨S128x384, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S400000x1, .i32⟩
  | .hbm, ⟨8, _⟩ => ⟨S400000, .i32⟩
  | .hbm, ⟨9, _⟩ => ⟨S400000x1, .i32⟩
  | .hbm, ⟨10, _⟩ => ⟨S400000, .i32⟩
  | .hbm, ⟨11, _⟩ => ⟨S400000x1, .i32⟩
  | .hbm, ⟨12, _⟩ => ⟨S400000, .i32⟩
  | .hbm, ⟨13, _⟩ => ⟨S_, .i32⟩
  | .hbm, ⟨14, _⟩ => ⟨S400000, .i32⟩
  | .hbm, ⟨15, _⟩ => ⟨S400000, .i1⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S400000, .i32⟩
  | .hbm, ⟨20, _⟩ => ⟨S400000x1, .i32⟩
  | .hbm, ⟨21, _⟩ => ⟨S400000x128, .f32⟩
  | .hbm, ⟨22, _⟩ => ⟨S_, .i32⟩
  | .hbm, ⟨23, _⟩ => ⟨S400000, .i32⟩
  | .hbm, ⟨24, _⟩ => ⟨S400000, .i1⟩
  | .hbm, ⟨25, _⟩ => ⟨S_, .i32⟩
  | .hbm, ⟨26, _⟩ => ⟨S400000, .i32⟩
  | .hbm, ⟨27, _⟩ => ⟨S400000, .i32⟩
  | .hbm, ⟨28, _⟩ => ⟨S400000, .i32⟩
  | .hbm, ⟨29, _⟩ => ⟨S400000x1, .i32⟩
  | .hbm, ⟨30, _⟩ => ⟨S400000x128, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x128, .f32⟩
  | .hbm, ⟨40, _⟩ => ⟨S400000x384, .f32⟩
  | .hbm, ⟨41, _⟩ => ⟨S384x128, .f32⟩
  | .hbm, ⟨42, _⟩ => ⟨S400000x128, .f32⟩
  | .hbm, ⟨43, _⟩ => ⟨S400000x1, .f32⟩
  | .hbm, ⟨44, _⟩ => ⟨S_, .f32⟩
  | .hbm, ⟨45, _⟩ => ⟨S100000x1, .f32⟩
  | .hbm, ⟨46, _⟩ => ⟨S400000x1, .i32⟩
  | .hbm, ⟨47, _⟩ => ⟨S100000x1, .f32⟩
  | .hbm, ⟨48, _⟩ => ⟨S_, .f32⟩
  | .hbm, ⟨49, _⟩ => ⟨S100000x128, .f32⟩
  | .hbm, ⟨50, _⟩ => ⟨S400000x1, .i32⟩
  | .hbm, ⟨51, _⟩ => ⟨S100000x128, .f32⟩
  | .hbm, ⟨52, _⟩ => ⟨S_, .f32⟩
  | .hbm, ⟨53, _⟩ => ⟨S100000x1, .f32⟩
  | .hbm, ⟨54, _⟩ => ⟨S100000x1, .i1⟩
  | .hbm, ⟨55, _⟩ => ⟨S_, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S237x128, .f32⟩
  | .hbm, ⟨63, _⟩ => ⟨S400000x1, .i32⟩
  | .hbm, ⟨64, _⟩ => ⟨S237x128, .f32⟩
  | .hbm, ⟨65, _⟩ => ⟨S_, .f32⟩
  | .hbm, ⟨66, _⟩ => ⟨S400000x1, .f32⟩
  | .hbm, ⟨67, _⟩ => ⟨S_, .f32⟩
  | .hbm, ⟨68, _⟩ => ⟨S237x1, .f32⟩
  | .hbm, ⟨69, _⟩ => ⟨S400000x1, .i32⟩
  | .hbm, ⟨70, _⟩ => ⟨S237x1, .f32⟩
  | .hbm, ⟨71, _⟩ => ⟨S_, .f32⟩
  | .hbm, ⟨72, _⟩ => ⟨S237x1, .f32⟩
  | .hbm, ⟨73, _⟩ => ⟨S237x1, .f32⟩
  | .hbm, ⟨74, _⟩ => ⟨S237x128, .f32⟩
  | .hbm, ⟨75, _⟩ => ⟨S237x128, .f32⟩
  | .hbm, ⟨76, _⟩ => ⟨S_, .f32⟩
  | .hbm, ⟨77, _⟩ => ⟨S100000x128, .f32⟩
  | .hbm, ⟨78, _⟩ => ⟨S100000x128, .i1⟩
  | .hbm, ⟨79, _⟩ => ⟨S_, .f32⟩
  | .hbm, ⟨80, _⟩ => ⟨S100000x128, .f32⟩
  | .hbm, ⟨81, _⟩ => ⟨S100000x128, .i1⟩
  | .hbm, ⟨82, _⟩ => ⟨S_, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S237x128, .f32⟩
  | .hbm, ⟨93, _⟩ => ⟨S237x128, .i1⟩
  | .hbm, ⟨94, _⟩ => ⟨S_, .f32⟩
  | .hbm, ⟨95, _⟩ => ⟨S237x128, .f32⟩
  | .hbm, ⟨96, _⟩ => ⟨S237x128, .i1⟩
  | .hbm, ⟨97, _⟩ => ⟨S_, .f32⟩
  | .hbm, ⟨98, _⟩ => ⟨S_, .f32⟩
  | .hbm, ⟨99, _⟩ => ⟨S237x128, .f32⟩
  | .hbm, ⟨100, _⟩ => ⟨S237x128, .f32⟩
  | .hbm, ⟨101, _⟩ => ⟨S237x128, .f32⟩
  | .hbm, ⟨102, _⟩ => ⟨S_, .f32⟩
  | .hbm, ⟨103, _⟩ => ⟨S237x128, .f32⟩
  | .hbm, ⟨104, _⟩ => ⟨S237x128, .f32⟩
  | .hbm, ⟨105, _⟩ => ⟨S237x128, .f32⟩
  | .local _ .vmem, ⟨0, _⟩ => ⟨S4000x384, .f32⟩
  | .local _ .vmem, ⟨1, _⟩ => ⟨S4000x384, .f32⟩
  | .local _ .vmem, ⟨2, _⟩ => ⟨S384x128, .f32⟩
  | .local _ .vmem, ⟨3, _⟩ => ⟨S128, .f32⟩
  | .local _ .vmem, ⟨4, _⟩ => ⟨S1x128, .f32⟩
  | .local _ .vmem, ⟨5, _⟩ => ⟨S1, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | _, _ => ⟨S400000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_call0_v0 : Ref sig .tc := ⟨.hbm, 56, rfl⟩
abbrev main_call0_v1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_cst_1 : Ref sig .tc := ⟨.hbm, 82, rfl⟩
abbrev main_call1_call0_v0 : Ref sig .tc := ⟨.hbm, 83, rfl⟩
abbrev main_call1_call0_v1 : Ref sig .tc := ⟨.hbm, 84, rfl⟩
abbrev main_call1_v4 : Ref sig .tc := ⟨.hbm, 85, rfl⟩
abbrev main_call1_v5 : Ref sig .tc := ⟨.hbm, 86, rfl⟩
abbrev main_call1_cst_2 : Ref sig .tc := ⟨.hbm, 87, rfl⟩
abbrev main_call1_v6 : Ref sig .tc := ⟨.hbm, 88, rfl⟩
abbrev main_call1_v7 : Ref sig .tc := ⟨.hbm, 89, rfl⟩
abbrev main_v52 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_cst_1 : Ref sig .tc := ⟨.hbm, 97, rfl⟩
abbrev main_call2_call0_v0 : Ref sig .tc := ⟨.hbm, 98, rfl⟩
abbrev main_call2_call0_v1 : Ref sig .tc := ⟨.hbm, 99, rfl⟩
abbrev main_call2_v4 : Ref sig .tc := ⟨.hbm, 100, rfl⟩
abbrev main_call2_v5 : Ref sig .tc := ⟨.hbm, 101, rfl⟩
abbrev main_call2_cst_2 : Ref sig .tc := ⟨.hbm, 102, rfl⟩
abbrev main_call2_v6 : Ref sig .tc := ⟨.hbm, 103, rfl⟩
abbrev main_call2_v7 : Ref sig .tc := ⟨.hbm, 104, rfl⟩
abbrev main_v53 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S400000x3_S400000x1_0_0 : S400000x3.Slices ![0, 0] S400000x1
  shapeCasts_S400000x1_S400000 : S400000x1.ShapeCasts S400000
  slices_S400000x3_S400000x1_0_1 : S400000x3.Slices ![0, 1] S400000x1
  slices_S400000x3_S400000x1_0_2 : S400000x3.Slices ![0, 2] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  transposes_S128x384_S384x128_1_0 : S128x384.Transposes [1, 0] S384x128
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S1x128_S1x128_0_0 : ∀ a, (![0, 0] : Fin 2 → Nat) a + S1x128.size a ≤ S1x128.size a
  h_S1x128 : 0 < S1x128.numel
  reduces_S4000x128_S4000 : S4000x128.Reduces [1] S4000
  shapeCasts_S4000_S4000x1 : S4000.ShapeCasts S4000x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  bcast_S_S100000x1 : S_.BroadcastsInDim S100000x1 (![] : Fin 0 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S237x128 : S_.BroadcastsInDim S237x128 (![] : Fin 0 → Fin S237x128.rank)
  bcast_S_S400000x1 : S_.BroadcastsInDim S400000x1 (![] : Fin 0 → Fin S400000x1.rank)
  bcast_S_S237x1 : S_.BroadcastsInDim S237x1 (![] : Fin 0 → Fin S237x1.rank)
  bcast_S237x1_S237x128_0_1 : S237x1.BroadcastsInDim S237x128 (![0, 1] : Fin 2 → Fin S237x128.rank)
  gather_S100000x128_S400000x1_S400000x128_1_0_n_n_0_1_1128_wf : GatherDims.WF S100000x128 S400000x1 S400000x128 [1] [0] [] [0] [] 1 ![1, 128]
  gather_S237x128_S400000x1_S400000x128_1_0_n_n_0_1_1128_wf : GatherDims.WF S237x128 S400000x1 S400000x128 [1] [0] [] [0] [] 1 ![1, 128]
  dot_S4000x384_S384x128_S4000x128_1_0_0_1_n_n_wf : DotDims.WF S4000x384 S384x128 S4000x128 [1] [0] [0] [1] [] []
  scatter_S100000x1_S400000x1_S400000x1_1_0_0_1_wf : ScatterDims.WF S100000x1 S400000x1 S400000x1 [1] [0] [0] 1
  scatter_S100000x128_S400000x1_S400000x128_1_0_0_1_wf : ScatterDims.WF S100000x128 S400000x1 S400000x128 [1] [0] [0] 1
  scatter_S237x128_S400000x1_S400000x128_1_0_0_1_wf : ScatterDims.WF S237x128 S400000x1 S400000x128 [1] [0] [0] 1
  scatter_S237x1_S400000x1_S400000x1_1_0_0_1_wf : ScatterDims.WF S237x1 S400000x1 S400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x384.size a ≤ S400000x384.size a
  hwx0_0 : ∀ i : grid0.Coords, EltTy.bits .f32 = 32 ∨ (Rect.block (s := S400000x384) S4000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S400000x128.size a
  hwx0_5 : ∀ i : grid0.Coords, EltTy.bits .f32 = 32 ∨ (Rect.block (s := S400000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S400000x1.size a
  hwx0_6 : ∀ i : grid0.Coords, EltTy.bits .f32 = 32 ∨ (Rect.block (s := S400000x1) S4000x1.size (cc0_transform_6 i) (hinb0_6 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S237x128_S400000x1_S400000x128_1_0_n_n_0_1_1128 : GatherDims S237x128 S400000x1 S400000x128 where
  offsetDims := [1]
  collapsedSliceDims := [0]
  operandBatchingDims := []
  startIndicesBatchingDims := []
  startIndexMap := [0]
  indexVectorDim := 1
  sliceSizes := ![1, 128]
  wf := gather_S237x128_S400000x1_S400000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S237x128_S400000x1_S400000x128_1_0_0_1 : ScatterDims S237x128 S400000x1 S400000x128 where
  updateWindowDims := [1]
  insertedWindowDims := [0]
  scatterDimsToOperandDims := [0]
  indexVectorDim := 1
  wf := scatter_S237x128_S400000x1_S400000x128_1_0_0_1_wf
def scatter_S237x1_S400000x1_S400000x1_1_0_0_1 : ScatterDims S237x1 S400000x1 S400000x1 where
  updateWindowDims := [1]
  insertedWindowDims := [0]
  scatterDimsToOperandDims := [0]
  indexVectorDim := 1
  wf := scatter_S237x1_S400000x1_S400000x1_1_0_0_1_wf

abbrev win0_0 : Pipeline.Window sig grid0 :=
  Pipeline.Window.ofSpec (Memref.whole main_v27) S4000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S4000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S400000x3 : Shape := ⟨2, ![400000, 3]⟩
abbrev S100000x128 : Shape := ⟨2, ![100000, 128]⟩
abbrev S237x128 : Shape := ⟨2, ![237, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S400000x1 : Shape := ⟨2, ![400000, 1]⟩
abbrev S400000 : Shape := ⟨1, ![400000]⟩
abbrev S_ : Shape := ⟨0, ![]⟩
abbrev S400000x128 : Shape := ⟨2, ![400000, 128]⟩
abbrev S400000x384 : Shape := ⟨2, ![400000, 384]⟩
abbrev S384x128 : Shape := ⟨2, ![384, 128]⟩
abbrev S128x1 : Shape := ⟨2, ![128, 1]⟩
abbrev S1x1 : Shape := ⟨2, ![1, 1]⟩
abbrev S100000x1 : Shape := ⟨2, ![100000, 1]⟩
abbrev S237x1 : Shape := ⟨2, ![237, 1]⟩

abbrev nBuf : Space → Nat
  | .hbm => 123
  | .vmem => 0
  | .smem => 0
  | _ => 0

abbrev bufTy : (tb : Table) → Fin (tcTables nBuf tb) → BufTy
  | .hbm, ⟨0, _⟩ => ⟨S400000x3, .i32⟩
  | .hbm, ⟨1, _⟩ => ⟨S100000x128, .f32⟩
  | .hbm, ⟨2, _⟩ => ⟨S237x128, .f32⟩
  | .hbm, ⟨3, _⟩ => ⟨S128x384, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S400000x1, .i32⟩
  | .hbm, ⟨8, _⟩ => ⟨S400000, .i32⟩
  | .hbm, ⟨9, _⟩ => ⟨S400000x1, .i32⟩
  | .hbm, ⟨10, _⟩ => ⟨S400000, .i32⟩
  | .hbm, ⟨11, _⟩ => ⟨S400000x1, .i32⟩
  | .hbm, ⟨12, _⟩ => ⟨S400000, .i32⟩
  | .hbm, ⟨13, _⟩ => ⟨S_, .i32⟩
  | .hbm, ⟨14, _⟩ => ⟨S400000, .i32⟩
  | .hbm, ⟨15, _⟩ => ⟨S400000, .i1⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S400000, .i32⟩
  | .hbm, ⟨20, _⟩ => ⟨S400000x1, .i32⟩
  | .hbm, ⟨21, _⟩ => ⟨S400000x128, .f32⟩
  | .hbm, ⟨22, _⟩ => ⟨S_, .i32⟩
  | .hbm, ⟨23, _⟩ => ⟨S400000, .i32⟩
  | .hbm, ⟨24, _⟩ => ⟨S400000, .i1⟩
  | .hbm, ⟨25, _⟩ => ⟨S_, .i32⟩
  | .hbm, ⟨26, _⟩ => ⟨S400000, .i32⟩
  | .hbm, ⟨27, _⟩ => ⟨S400000, .i32⟩
  | .hbm, ⟨28, _⟩ => ⟨S400000, .i32⟩
  | .hbm, ⟨29, _⟩ => ⟨S400000x1, .i32⟩
  | .hbm, ⟨30, _⟩ => ⟨S400000x128, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x128, .f32⟩
  | .hbm, ⟨40, _⟩ => ⟨S400000x384, .f32⟩
  | .hbm, ⟨41, _⟩ => ⟨S384x128, .f32⟩
  | .hbm, ⟨42, _⟩ => ⟨S400000x128, .f32⟩
  | .hbm, ⟨43, _⟩ => ⟨S1x128, .f32⟩
  | .hbm, ⟨44, _⟩ => ⟨S400000x128, .f32⟩
  | .hbm, ⟨45, _⟩ => ⟨S400000x128, .f32⟩
  | .hbm, ⟨46, _⟩ => ⟨S128x1, .f32⟩
  | .hbm, ⟨47, _⟩ => ⟨S400000x1, .f32⟩
  | .hbm, ⟨48, _⟩ => ⟨S1x1, .f32⟩
  | .hbm, ⟨49, _⟩ => ⟨S400000x1, .f32⟩
  | .hbm, ⟨50, _⟩ => ⟨S400000x1, .f32⟩
  | .hbm, ⟨51, _⟩ => ⟨S_, .f32⟩
  | .hbm, ⟨52, _⟩ => ⟨S400000x1, .f32⟩
  | .hbm, ⟨53, _⟩ => ⟨S400000x1, .i1⟩
  | .hbm, ⟨54, _⟩ => ⟨S_, .f32⟩
  | .hbm, ⟨55, _⟩ => ⟨S400000x1, .f32⟩
  | .hbm, ⟨56, _⟩ => ⟨S400000x1, .f32⟩
  | .hbm, ⟨57, _⟩ => ⟨S400000x1, .f32⟩
  | .hbm, ⟨58, _⟩ => ⟨S400000x1, .f32⟩
  | .hbm, ⟨59, _⟩ => ⟨S_, .f32⟩
  | .hbm, ⟨60, _⟩ => ⟨S100000x1, .f32⟩
  | .hbm, ⟨61, _⟩ => ⟨S400000x1, .i32⟩
  | .hbm, ⟨62, _⟩ => ⟨S100000x1, .f32⟩
  | .hbm, ⟨63, _⟩ => ⟨S400000x128, .f32⟩
  | .hbm, ⟨64, _⟩ => ⟨S400000x128, .f32⟩
  | .hbm, ⟨65, _⟩ => ⟨S_, .f32⟩
  | .hbm, ⟨66, _⟩ => ⟨S100000x128, .f32⟩
  | .hbm, ⟨67, _⟩ => ⟨S400000x1, .i32⟩
  | .hbm, ⟨68, _⟩ => ⟨S100000x128, .f32⟩
  | .hbm, ⟨69, _⟩ => ⟨S_, .f32⟩
  | .hbm, ⟨70, _⟩ => ⟨S100000x1, .f32⟩
  | .hbm, ⟨71, _⟩ => ⟨S100000x1, .i1⟩
  | .hbm, ⟨72, _⟩ => ⟨S_, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S237x128, .f32⟩
  | .hbm, ⟨80, _⟩ => ⟨S400000x1, .i32⟩
  | .hbm, ⟨81, _⟩ => ⟨S237x128, .f32⟩
  | .hbm, ⟨82, _⟩ => ⟨S_, .f32⟩
  | .hbm, ⟨83, _⟩ => ⟨S400000x1, .f32⟩
  | .hbm, ⟨84, _⟩ => ⟨S_, .f32⟩
  | .hbm, ⟨85, _⟩ => ⟨S237x1, .f32⟩
  | .hbm, ⟨86, _⟩ => ⟨S400000x1, .i32⟩
  | .hbm, ⟨87, _⟩ => ⟨S237x1, .f32⟩
  | .hbm, ⟨88, _⟩ => ⟨S_, .f32⟩
  | .hbm, ⟨89, _⟩ => ⟨S237x1, .f32⟩
  | .hbm, ⟨90, _⟩ => ⟨S237x1, .f32⟩
  | .hbm, ⟨91, _⟩ => ⟨S237x128, .f32⟩
  | .hbm, ⟨92, _⟩ => ⟨S237x128, .f32⟩
  | .hbm, ⟨93, _⟩ => ⟨S_, .f32⟩
  | .hbm, ⟨94, _⟩ => ⟨S100000x128, .f32⟩
  | .hbm, ⟨95, _⟩ => ⟨S100000x128, .i1⟩
  | .hbm, ⟨96, _⟩ => ⟨S_, .f32⟩
  | .hbm, ⟨97, _⟩ => ⟨S100000x128, .f32⟩
  | .hbm, ⟨98, _⟩ => ⟨S100000x128, .i1⟩
  | .hbm, ⟨99, _⟩ => ⟨S_, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S_, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S237x128, .f32⟩
  | .hbm, ⟨110, _⟩ => ⟨S237x128, .i1⟩
  | .hbm, ⟨111, _⟩ => ⟨S_, .f32⟩
  | .hbm, ⟨112, _⟩ => ⟨S237x128, .f32⟩
  | .hbm, ⟨113, _⟩ => ⟨S237x128, .i1⟩
  | .hbm, ⟨114, _⟩ => ⟨S_, .f32⟩
  | .hbm, ⟨115, _⟩ => ⟨S_, .f32⟩
  | .hbm, ⟨116, _⟩ => ⟨S237x128, .f32⟩
  | .hbm, ⟨117, _⟩ => ⟨S237x128, .f32⟩
  | .hbm, ⟨118, _⟩ => ⟨S237x128, .f32⟩
  | .hbm, ⟨119, _⟩ => ⟨S_, .f32⟩
  | .hbm, ⟨120, _⟩ => ⟨S237x128, .f32⟩
  | .hbm, ⟨121, _⟩ => ⟨S237x128, .f32⟩
  | .hbm, ⟨122, _⟩ => ⟨S237x128, .f32⟩
  | _, _ => ⟨S400000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_call1_v0 : Ref sig .tc := ⟨.hbm, 73, rfl⟩
abbrev main_call1_v1 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_cst_1 : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_v4 : Ref sig .tc := ⟨.hbm, 102, rfl⟩
abbrev main_call2_v5 : Ref sig .tc := ⟨.hbm, 103, rfl⟩
abbrev main_call2_cst_2 : Ref sig .tc := ⟨.hbm, 104, rfl⟩
abbrev main_call2_v6 : Ref sig .tc := ⟨.hbm, 105, rfl⟩
abbrev main_call2_v7 : Ref sig .tc := ⟨.hbm, 106, rfl⟩
abbrev main_v64 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_cst_0 : Ref sig .tc := ⟨.hbm, 111, rfl⟩
abbrev main_call3_v2 : Ref sig .tc := ⟨.hbm, 112, rfl⟩
abbrev main_call3_v3 : Ref sig .tc := ⟨.hbm, 113, rfl⟩
abbrev main_call3_cst_1 : Ref sig .tc := ⟨.hbm, 114, rfl⟩
abbrev main_call3_call0_v0 : Ref sig .tc := ⟨.hbm, 115, rfl⟩
abbrev main_call3_call0_v1 : Ref sig .tc := ⟨.hbm, 116, rfl⟩
abbrev main_call3_v4 : Ref sig .tc := ⟨.hbm, 117, rfl⟩
abbrev main_call3_v5 : Ref sig .tc := ⟨.hbm, 118, rfl⟩
abbrev main_call3_cst_2 : Ref sig .tc := ⟨.hbm, 119, rfl⟩
abbrev main_call3_v6 : Ref sig .tc := ⟨.hbm, 120, rfl⟩
abbrev main_call3_v7 : Ref sig .tc := ⟨.hbm, 121, rfl⟩
abbrev main_v65 : Ref sig .tc := ⟨.hbm, 122, rfl⟩

abbrev nD : Nat := 1
abbrev τ : Topo := Topo.v7x

variable {F : FTy → Type} [FloatOps F]

class Facts₀ : Prop where
  slices_S400000x3_S400000x1_0_0 : S400000x3.Slices ![0, 0] S400000x1
  shapeCasts_S400000x1_S400000 : S400000x1.ShapeCasts S400000
  slices_S400000x3_S400000x1_0_1 : S400000x3.Slices ![0, 1] S400000x1
  slices_S400000x3_S400000x1_0_2 : S400000x3.Slices ![0, 2] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  transposes_S128x384_S384x128_1_0 : S128x384.Transposes [1, 0] S384x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  transposes_S1x128_S128x1_1_0 : S1x128.Transposes [1, 0] S128x1
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  bcast_S_S100000x1 : S_.BroadcastsInDim S100000x1 (![] : Fin 0 → Fin S100000x1.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S237x128 : S_.BroadcastsInDim S237x128 (![] : Fin 0 → Fin S237x128.rank)
  bcast_S_S237x1 : S_.BroadcastsInDim S237x1 (![] : Fin 0 → Fin S237x1.rank)
  bcast_S237x1_S237x128_0_1 : S237x1.BroadcastsInDim S237x128 (![0, 1] : Fin 2 → Fin S237x128.rank)
  gather_S100000x128_S400000x1_S400000x128_1_0_n_n_0_1_1128_wf : GatherDims.WF S100000x128 S400000x1 S400000x128 [1] [0] [] [0] [] 1 ![1, 128]
  gather_S237x128_S400000x1_S400000x128_1_0_n_n_0_1_1128_wf : GatherDims.WF S237x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x1_S400000x1_1_0_0_1_n_n_wf : DotDims.WF S400000x128 S128x1 S400000x1 [1] [0] [0] [1] [] []
  scatter_S100000x1_S400000x1_S400000x1_1_0_0_1_wf : ScatterDims.WF S100000x1 S400000x1 S400000x1 [1] [0] [0] 1
  scatter_S100000x128_S400000x1_S400000x128_1_0_0_1_wf : ScatterDims.WF S100000x128 S400000x1 S400000x128 [1] [0] [0] 1
  scatter_S237x128_S400000x1_S400000x128_1_0_0_1_wf : ScatterDims.WF S237x128 S400000x1 S400000x128 [1] [0] [0] 1
  scatter_S237x1_S400000x1_S400000x1_1_0_0_1_wf : ScatterDims.WF S237x1 S400000x1 S400000x1 [1] [0] [0] 1

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S237x128_S400000x1_S400000x128_1_0_n_n_0_1_1128 : GatherDims S237x128 S400000x1 S400000x128 where
  offsetDims := [1]
  collapsedSliceDims := [0]
  operandBatchingDims := []
  startIndicesBatchingDims := []
  startIndexMap := [0]
  indexVectorDim := 1
  sliceSizes := ![1, 128]
  wf := gather_S237x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S237x128_S400000x1_S400000x128_1_0_0_1 : ScatterDims S237x128 S400000x1 S400000x128 where
  updateWindowDims := [1]
  insertedWindowDims := [0]
  scatterDimsToOperandDims := [0]
  indexVectorDim := 1
  wf := scatter_S237x128_S400000x1_S400000x128_1_0_0_1_wf
def scatter_S237x1_S400000x1_S400000x1_1_0_0_1 : ScatterDims S237x1 S400000x1 S400000x1 where
  updateWindowDims := [1]
  insertedWindowDims := [0]
  scatterDimsToOperandDims := [0]
  indexVectorDim := 1
  wf := scatter_S237x1_S400000x1_S400000x1_1_0_0_1_wf

class Facts : Prop extends Facts₀ where

variable [Facts]
-- ==== Proof.KFrame.lean ====
/-
  The kernel's program as one run: the host lines that build the edge-feature matrix (three row gathers joined along
  the columns) and the transposed weight, the kernel over its hundred row blocks of 4000 edges, and the host lines that
  scatter-add its two results by source and by relation and finish with the quotients and the elu.

  Per block the kernel reads its 4000 x 384 block of features, the whole 384 x 128 weight, the bias row, the second
  weight row and the scalar bias, and stores two blocks: the 4000 x 128 block of weighted features and the 4000 x 1
  column of attention weights. Each store covers its whole buffer, so what the buffer holds afterwards is the stored
  value: a function of the five blocks read (`blockT` and `blockE`). The run ends with each of the kernel's seven
  arrays at what the blocks written back leave there, every other buffer at what the later host lines compute from
  those, and the seven arguments untouched. Stated for any float family.
-/
import proofs.«175567_j49082886259211_1_alg».proof.Proof.Gen.Kernel.Launch
import proofs.«175567_j49082886259211_1_alg».proof.Proof.Gen.Kernel.Skeleton
import proofs.«175567_j49082886259211_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- What core `c`'s buffers hold when the kernel starts: the given contents after the host lines before it. -/
abbrev V0 (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V0 m c (Proc.devRef .tc b)

/-- The host lines after the kernel, stretch by stretch: the scatters and the quotient's guard, the guard's select, the
    second quotient, and the two elus. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is: the lines before, the kernel, the lines after. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only the kernel's arrays and the buffers the kernel leaves alone. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 2000000 in
theorem hostOps1_keeps : (hostOps1 : List (HloOp τ sig (Elt F))).Forall fun op => ∀ w : Fin 7, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_1_keeps : (hostOps1_1 : List (HloOp τ sig (Elt F))).Forall fun op => ∀ w : Fin 7, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_2_keeps : (hostOps1_2 : List (HloOp τ sig (Elt F))).Forall fun op => ∀ w : Fin 7, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_3_keeps : (hostOps1_3 : List (HloOp τ sig (Elt F))).Forall fun op => ∀ w : Fin 7, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_4_keeps : (hostOps1_4 : List (HloOp τ sig (Elt F))).Forall fun op => ∀ w : Fin 7, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))

/-- And none of them writes one of the kernel's seven arrays: each writes its own result buffer. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line before the kernel writes argument 0: the kernel's region meets it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 0 ends as it was given. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the kernel writes argument 1: the kernel's region meets it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 1 ends as it was given. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the kernel writes argument 2: the kernel's region meets it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 2 ends as it was given. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the kernel writes argument 3: the kernel's region meets it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 3 ends as it was given. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the kernel writes argument 4: the kernel's region meets it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the kernel writes argument 5: the kernel's region meets it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the kernel writes argument 6: the kernel's region meets it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the kernel reads -/

/-- Window `w`'s block at grid point `t`, cut out of its array as the kernel meets it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whatever proof data has the entry arrays and leaves input window 0's block in place, the buffer the body reads
    window 0 from holds that window's block of its array, at a point that fetches it and at one that does not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 1's block in place, the buffer the body reads
    window 1 from holds that window's block of its array, at a point that fetches it and at one that does not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 2's block in place, the buffer the body reads
    window 2 from holds that window's block of its array, at a point that fetches it and at one that does not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 3's block in place, the buffer the body reads
    window 3 from holds that window's block of its array, at a point that fetches it and at one that does not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 4's block in place, the buffer the body reads
    window 4 from holds that window's block of its array, at a point that fetches it and at one that does not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What one grid point stores -/

abbrev rw0 : Rect S4000x384 := Rect.unit (s := S4000x384) ![0, 0] S4000x384.size inb_S4000x384_S4000x384_0_0
abbrev rw1 : Rect S384x128 := Rect.unit (s := S384x128) ![0, 0] S384x128.size inb_S384x128_S384x128_0_0
abbrev rw2 : Rect S128 := Rect.unit (s := S128) ![0] S128.size inb_S128_S128_0
abbrev rw3 : Rect S1x128 := Rect.unit (s := S1x128) ![0, 0] S1x128.size inb_S1x128_S1x128_0_0
abbrev rw4 : Rect S1 := Rect.unit (s := S1) ![0] S1.size inb_S1_S1_0
abbrev rw5 : Rect S4000x128 := Rect.unit (s := S4000x128) ![0, 0] S4000x128.size inb_S4000x128_S4000x128_0_0
abbrev rw6 : Rect S4000x1 := Rect.unit (s := S4000x1) ![0, 0] S4000x1.size inb_S4000x1_S4000x1_0_0

/-- The block of weighted features one grid point stores, from the five blocks it reads. -/
def blockT (x0 : Vec F S4000x384 .f32) (x1 : Vec F S384x128 .f32) (x2 : Vec F S128 .f32) (x3 : Vec F S1x128 .f32) (x4 : Vec F S1 .f32) : Vec F S4000x128 .f32 :=
  View.canon [⟨rw5, k0_pay3 (View.ld x0 rw0) (View.ld x1 rw1) (View.ld x2 rw2) (View.ld x3 rw3) (View.ld x4 rw4)⟩]

/-- The column of attention weights one grid point stores, from the five blocks it reads. -/
def blockE (x0 : Vec F S4000x384 .f32) (x1 : Vec F S384x128 .f32) (x2 : Vec F S128 .f32) (x3 : Vec F S1x128 .f32) (x4 : Vec F S1 .f32) : Vec F S4000x1 .f32 :=
  View.canon [⟨rw6, k0_pay2 (View.ld x0 rw0) (View.ld x1 rw1) (View.ld x2 rw2) (View.ld x3 rw3) (View.ld x4 rw4)⟩]

/-- The one store into the feature block covers it. -/
theorem coverT (p0 : Vec F S4000x128 .f32) (y : S4000x128.Idx) :
    ∃ pc ∈ ([⟨rw5, p0⟩] : List (View.Piece (Elt F) S4000x128 .f32)), y ∈ pc.1.set :=
  View.cover_of_tiled [⟨rw5, p0⟩] S4000x128.size (by rfl) y

/-- The one store into the weight column covers it. -/
theorem coverE (p0 : Vec F S4000x1 .f32) (y : S4000x1.Idx) :
    ∃ pc ∈ ([⟨rw6, p0⟩] : List (View.Piece (Elt F) S4000x1 .f32)), y ∈ pc.1.set :=
  View.cover_of_tiled [⟨rw6, p0⟩] S4000x1.size (by rfl) y

set_option maxHeartbeats 2000000 in
/-- The kernel's body, run on whole buffers: the five it reads hold `x0 … x4` and keep them, the two it writes hold
    anything before and `blockT`, `blockE` of the five afterwards. -/
theorem body_run (c : Dev nD) (E : Set ℕ) (i : grid0.Coords)
    (arg1 : Memref sig .tc .vmem S4000x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S1x128 .f32) (harg4 : arg4.IsWhole)
    (arg5 : Memref sig .tc .vmem S1 .f32) (harg5 : arg5.IsWhole) (arg6 : Memref sig .tc .vmem S4000x128 .f32) (harg6 : arg6.IsWhole)
    (arg7 : Memref sig .tc .vmem S4000x1 .f32) (harg7 : arg7.IsWhole)
    (x0 : Vec F S4000x384 .f32) (x1 : Vec F S384x128 .f32) (x2 : Vec F S128 .f32) (x3 : Vec F S1x128 .f32) (x4 : Vec F S1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockT x0 x1 x2 x3 x4) ∗ owns (c : Thread nD τ) arg7 fullShare (blockE x0 x1 x2 x3 x4)) -∗ K ⟨⟩))
      ⊢ wp frame (wpE (defs₀ (F := F)) Variants.none c none) E (cc0__kgatt_kernel i arg1 harg1 arg2 harg2 arg3 harg3 arg4 harg4 arg5 harg5 arg6 harg6 arg7 harg7) K := by
  simp only [cc0__kgatt_kernel_eq_skeleton]; unfold cc0__kgatt_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverT _)
  iexists _; isplitr
  swap; · iexact H6
  ipureintro
  exact View.read_writes_eq_canon _ _ _ (coverE _)

/-! ## The proof data of the kernel's pipeline -/

/-- On core `c`: the seven arrays as the kernel meets them; after the body at point `t` each of the five read
    windows still at its block and the two written windows at `blockT`, `blockE` of those blocks; nothing else held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockT (iblk m c 0 t) (iblk m c 1 t) (iblk m c 2 t) (iblk m c 3 t) (iblk m c 4 t)
    | ⟨6, _⟩ => blockE (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockT (iblk m c 0 t) (iblk m c 1 t) (iblk m c 2 t) (iblk m c 3 t) (iblk m c 4 t) := by dsimp only [dats]
theorem after_6 (c : Dev nD) (t : Fin cfg0.N) : (dats m 0 c).after 6 t = blockE (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program ends, faulting nowhere, with the kernel's seven arrays at what the
    blocks written back leave in them and every other buffer at what the later host lines compute. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The seven arguments end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩) (run_main m ρ)

end Cert.Kernel.Fr

end
-- ==== Proof.KIFrame.lean ====
/-
  The kernel's program as one run: the host lines that build the edge-feature matrix (three row gathers joined along
  the columns) and the transposed weight, the kernel over its hundred row blocks of 4000 edges, and the host lines that
  scatter-add its two results by source and by relation and finish with the quotients and the elu.

  Per block the kernel reads its 4000 x 384 block of features, the whole 384 x 128 weight, the bias row, the second
  weight row and the scalar bias, and stores two blocks: the 4000 x 128 block of weighted features and the 4000 x 1
  column of attention weights. Each store covers its whole buffer, so what the buffer holds afterwards is the stored
  value: a function of the five blocks read (`blockT` and `blockE`). The run ends with each of the kernel's seven
  arrays at what the blocks written back leave there, every other buffer at what the later host lines compute from
  those, and the seven arguments untouched. Stated for any float family.
-/
import proofs.«175567_j49082886259211_1_alg».proof.Proof.Gen.KernelIdeal.Launch
import proofs.«175567_j49082886259211_1_alg».proof.Proof.Gen.KernelIdeal.Skeleton
import proofs.«175567_j49082886259211_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- What core `c`'s buffers hold when the kernel starts: the given contents after the host lines before it. -/
abbrev V0 (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V0 m c (Proc.devRef .tc b)

/-- The host lines after the kernel, stretch by stretch: the scatters and the quotient's guard, the guard's select, the
    second quotient, and the two elus. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is: the lines before, the kernel, the lines after. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only the kernel's arrays and the buffers the kernel leaves alone. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 2000000 in
theorem hostOps1_keeps : (hostOps1 : List (HloOp τ sig (Elt F))).Forall fun op => ∀ w : Fin 7, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_1_keeps : (hostOps1_1 : List (HloOp τ sig (Elt F))).Forall fun op => ∀ w : Fin 7, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_2_keeps : (hostOps1_2 : List (HloOp τ sig (Elt F))).Forall fun op => ∀ w : Fin 7, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_3_keeps : (hostOps1_3 : List (HloOp τ sig (Elt F))).Forall fun op => ∀ w : Fin 7, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))
set_option maxHeartbeats 2000000 in
theorem hostOps1_4_keeps : (hostOps1_4 : List (HloOp τ sig (Elt F))).Forall fun op => ∀ w : Fin 7, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; fin_cases w <;> exact StableHlo.devRef_ne_of_ne (by decide))

/-- And none of them writes one of the kernel's seven arrays: each writes its own result buffer. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line before the kernel writes argument 0: the kernel's region meets it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 0 ends as it was given. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the kernel writes argument 1: the kernel's region meets it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 1 ends as it was given. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the kernel writes argument 2: the kernel's region meets it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 2 ends as it was given. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the kernel writes argument 3: the kernel's region meets it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does any line after it: argument 3 ends as it was given. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the kernel writes argument 4: the kernel's region meets it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the kernel writes argument 5: the kernel's region meets it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the kernel writes argument 6: the kernel's region meets it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The blocks the kernel reads -/

/-- Window `w`'s block at grid point `t`, cut out of its array as the kernel meets it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whatever proof data has the entry arrays and leaves input window 0's block in place, the buffer the body reads
    window 0 from holds that window's block of its array, at a point that fetches it and at one that does not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 1's block in place, the buffer the body reads
    window 1 from holds that window's block of its array, at a point that fetches it and at one that does not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 2's block in place, the buffer the body reads
    window 2 from holds that window's block of its array, at a point that fetches it and at one that does not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 3's block in place, the buffer the body reads
    window 3 from holds that window's block of its array, at a point that fetches it and at one that does not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Whatever proof data has the entry arrays and leaves input window 4's block in place, the buffer the body reads
    window 4 from holds that window's block of its array, at a point that fetches it and at one that does not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What one grid point stores -/

abbrev rw0 : Rect S4000x384 := Rect.unit (s := S4000x384) ![0, 0] S4000x384.size inb_S4000x384_S4000x384_0_0
abbrev rw1 : Rect S384x128 := Rect.unit (s := S384x128) ![0, 0] S384x128.size inb_S384x128_S384x128_0_0
abbrev rw2 : Rect S128 := Rect.unit (s := S128) ![0] S128.size inb_S128_S128_0
abbrev rw3 : Rect S1x128 := Rect.unit (s := S1x128) ![0, 0] S1x128.size inb_S1x128_S1x128_0_0
abbrev rw4 : Rect S1 := Rect.unit (s := S1) ![0] S1.size inb_S1_S1_0
abbrev rw5 : Rect S4000x128 := Rect.unit (s := S4000x128) ![0, 0] S4000x128.size inb_S4000x128_S4000x128_0_0
abbrev rw6 : Rect S4000x1 := Rect.unit (s := S4000x1) ![0, 0] S4000x1.size inb_S4000x1_S4000x1_0_0

/-- The block of weighted features one grid point stores, from the five blocks it reads. -/
def blockT (x0 : Vec F S4000x384 .f32) (x1 : Vec F S384x128 .f32) (x2 : Vec F S128 .f32) (x3 : Vec F S1x128 .f32) (x4 : Vec F S1 .f32) : Vec F S4000x128 .f32 :=
  View.canon [⟨rw5, k0_pay3 (View.ld x0 rw0) (View.ld x1 rw1) (View.ld x2 rw2) (View.ld x3 rw3) (View.ld x4 rw4)⟩]

/-- The column of attention weights one grid point stores, from the five blocks it reads. -/
def blockE (x0 : Vec F S4000x384 .f32) (x1 : Vec F S384x128 .f32) (x2 : Vec F S128 .f32) (x3 : Vec F S1x128 .f32) (x4 : Vec F S1 .f32) : Vec F S4000x1 .f32 :=
  View.canon [⟨rw6, k0_pay2 (View.ld x0 rw0) (View.ld x1 rw1) (View.ld x2 rw2) (View.ld x3 rw3) (View.ld x4 rw4)⟩]

/-- The one store into the feature block covers it. -/
theorem coverT (p0 : Vec F S4000x128 .f32) (y : S4000x128.Idx) :
    ∃ pc ∈ ([⟨rw5, p0⟩] : List (View.Piece (Elt F) S4000x128 .f32)), y ∈ pc.1.set :=
  View.cover_of_tiled [⟨rw5, p0⟩] S4000x128.size (by rfl) y

/-- The one store into the weight column covers it. -/
theorem coverE (p0 : Vec F S4000x1 .f32) (y : S4000x1.Idx) :
    ∃ pc ∈ ([⟨rw6, p0⟩] : List (View.Piece (Elt F) S4000x1 .f32)), y ∈ pc.1.set :=
  View.cover_of_tiled [⟨rw6, p0⟩] S4000x1.size (by rfl) y

set_option maxHeartbeats 2000000 in
/-- The kernel's body, run on whole buffers: the five it reads hold `x0 … x4` and keep them, the two it writes hold
    anything before and `blockT`, `blockE` of the five afterwards. -/
theorem body_run (c : Dev nD) (E : Set ℕ) (i : grid0.Coords)
    (arg1 : Memref sig .tc .vmem S4000x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S1x128 .f32) (harg4 : arg4.IsWhole)
    (arg5 : Memref sig .tc .vmem S1 .f32) (harg5 : arg5.IsWhole) (arg6 : Memref sig .tc .vmem S4000x128 .f32) (harg6 : arg6.IsWhole)
    (arg7 : Memref sig .tc .vmem S4000x1 .f32) (harg7 : arg7.IsWhole)
    (x0 : Vec F S4000x384 .f32) (x1 : Vec F S384x128 .f32) (x2 : Vec F S128 .f32) (x3 : Vec F S1x128 .f32) (x4 : Vec F S1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockT x0 x1 x2 x3 x4) ∗ owns (c : Thread nD τ) arg7 fullShare (blockE x0 x1 x2 x3 x4)) -∗ K ⟨⟩))
      ⊢ wp frame (wpE (defs₀ (F := F)) Variants.none c none) E (cc0__kgatt_kernel i arg1 harg1 arg2 harg2 arg3 harg3 arg4 harg4 arg5 harg5 arg6 harg6 arg7 harg7) K := by
  simp only [cc0__kgatt_kernel_eq_skeleton]; unfold cc0__kgatt_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverT _)
  iexists _; isplitr
  swap; · iexact H6
  ipureintro
  exact View.read_writes_eq_canon _ _ _ (coverE _)

/-! ## The proof data of the kernel's pipeline -/

/-- On core `c`: the seven arrays as the kernel meets them; after the body at point `t` each of the five read
    windows still at its block and the two written windows at `blockT`, `blockE` of those blocks; nothing else held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockT (iblk m c 0 t) (iblk m c 1 t) (iblk m c 2 t) (iblk m c 3 t) (iblk m c 4 t)
    | ⟨6, _⟩ => blockE (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blockT (iblk m c 0 t) (iblk m c 1 t) (iblk m c 2 t) (iblk m c 3 t) (iblk m c 4 t) := by dsimp only [dats]
theorem after_6 (c : Dev nD) (t : Fin cfg0.N) : (dats m 0 c).after 6 t = blockE (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program ends, faulting nowhere, with the kernel's seven arrays at what the
    blocks written back leave in them and every other buffer at what the later host lines compute. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The seven arguments end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩) (run_main m ρ)

end Cert.KernelIdeal.Fr

end
-- ==== Proof.Spec.lean ====
/-
  What both programs compute, as named stages over whole arrays.

  An edge e has a source, a target and a relation (the three columns of the triplet table). Its feature row h[e] is the
  source's embedding, the relation's embedding and the target's embedding placed end to end (a negative index counted
  from the end of its table). With the transposed weight W' the edge's hidden row is c[e] = h[e] · W' + b, its score is
  z[e] = c[e] · w2' + b2, its attention weight is exp of the leaky rectification of z[e] (slope the float 0.01), and
  its weighted row is t[e] = weight[e] · c[e].

  Entities: the weighted rows and the weights are summed per source; the row sum is divided by the weight sum (by
  the float 1e-12 where that sum is zero) and passed through elu. Relations: the weighted rows are summed per
  relation and divided by the number of edges of the relation (at least one), then elu.

  The stages are spelt as the host program spells them, one array operation each, for any float family.
-/
import proofs.«175567_j49082886259211_1_alg».proof.Proof.Gen.ReferenceIdeal

noncomputable section

namespace Cert.Spec

open Cert.ReferenceIdeal Cert.ReferenceIdeal.Facts₀ Idealize.ShloMosaic

variable {F : FTy → Type} [FloatOps F]

/-- Column `k` of the triplet table as a vector of 400000 indices. -/
def col0 (trip : (⟨S400000x3, .i32⟩ : BufTy).Contents (Elt F)) : (⟨S400000, .i32⟩ : BufTy).Contents (Elt F) :=
  fun i => shapeCast S400000 (extractStridedSlice S400000x1 ![0, 0] trip slices_S400000x3_S400000x1_0_0) shapeCasts_S400000x1_S400000 i
def col1 (trip : (⟨S400000x3, .i32⟩ : BufTy).Contents (Elt F)) : (⟨S400000, .i32⟩ : BufTy).Contents (Elt F) :=
  fun i => shapeCast S400000 (extractStridedSlice S400000x1 ![0, 1] trip slices_S400000x3_S400000x1_0_1) shapeCasts_S400000x1_S400000 i
def col2 (trip : (⟨S400000x3, .i32⟩ : BufTy).Contents (Elt F)) : (⟨S400000, .i32⟩ : BufTy).Contents (Elt F) :=
  fun i => shapeCast S400000 (extractStridedSlice S400000x1 ![0, 2] trip slices_S400000x3_S400000x1_0_2) shapeCasts_S400000x1_S400000 i

/-- An index vector with its negative entries counted from the end of a table of `n` rows, as a column. -/
def wrapIdx (n : BitVec 32) (v : (⟨S400000, .i32⟩ : BufTy).Contents (Elt F)) : (⟨S400000x1, .i32⟩ : BufTy).Contents (Elt F) :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 n))) v)

/-- The edge features: source embedding, relation embedding, target embedding, end to end. -/
def feat (trip : (⟨S400000x3, .i32⟩ : BufTy).Contents (Elt F)) (ent : (⟨S100000x128, .f32⟩ : BufTy).Contents (Elt F))
    (rel : (⟨S237x128, .f32⟩ : BufTy).Contents (Elt F)) : (⟨S400000x384, .f32⟩ : BufTy).Contents (Elt F) :=
  concatenate S400000x384 1
    [⟨S400000x128, Host.gather gather_S100000x128_S400000x1_S400000x128_1_0_n_n_0_1_1128 ent (wrapIdx 100000#32 (col0 trip))⟩,
     ⟨S400000x128, Host.gather gather_S237x128_S400000x1_S400000x128_1_0_n_n_0_1_1128 rel (wrapIdx 237#32 (col2 trip))⟩,
     ⟨S400000x128, Host.gather gather_S100000x128_S400000x1_S400000x128_1_0_n_n_0_1_1128 ent (wrapIdx 100000#32 (col1 trip))⟩]
    concatenates_S400000x128_S400000x128_S400000x128_S400000x384_d1

/-- The transposed weight. -/
def wT (wa : (⟨S128x384, .f32⟩ : BufTy).Contents (Elt F)) : (⟨S384x128, .f32⟩ : BufTy).Contents (Elt F) :=
  transpose S384x128 [1, 0] wa transposes_S128x384_S384x128_1_0

/-- The hidden rows c = h · W' + b. -/
def cMat (h : (⟨S400000x384, .f32⟩ : BufTy).Contents (Elt F)) (wt : (⟨S384x128, .f32⟩ : BufTy).Contents (Elt F))
    (ba : (⟨S128, .f32⟩ : BufTy).Contents (Elt F)) : (⟨S400000x128, .f32⟩ : BufTy).Contents (Elt F) :=
  addf (Host.dotGeneral dot_S400000x384_S384x128_S400000x128_1_0_0_1_n_n none h wt)
    (broadcastInDim S400000x128 ![0, 1] bcast_S1x128_S400000x128_0_1 (broadcastInDim S1x128 ![1] bcast_S128_S1x128_1 ba))

/-- The scores z = c · w2' + b2. -/
def zCol (c : (⟨S400000x128, .f32⟩ : BufTy).Contents (Elt F)) (wa2 : (⟨S1x128, .f32⟩ : BufTy).Contents (Elt F))
    (ba2 : (⟨S1, .f32⟩ : BufTy).Contents (Elt F)) : (⟨S400000x1, .f32⟩ : BufTy).Contents (Elt F) :=
  addf (Host.dotGeneral dot_S400000x128_S128x1_S400000x1_1_0_0_1_n_n none c (transpose S128x1 [1, 0] wa2 transposes_S1x128_S128x1_1_0))
    (broadcastInDim S400000x1 ![0, 1] bcast_S1x1_S400000x1_0_1 (broadcastInDim S1x1 ![1] bcast_S1_S1x1_1 ba2))

/-- The attention weights: exp of the leaky rectification of the scores. -/
def ebCol (z : (⟨S400000x1, .f32⟩ : BufTy).Contents (Elt F)) : (⟨S400000x1, .f32⟩ : BufTy).Contents (Elt F) :=
  Host.exp (select (cmpf .oge z (broadcastInDim S400000x1 ![] bcast_S_S400000x1 (constant S_ .f32 0x00000000#32))) z
    (mulf (broadcastInDim S400000x1 ![] bcast_S_S400000x1 (constant S_ .f32 0x3C23D70A#32)) z))

/-- The weighted rows t = weight · c. -/
def t1Mat (eb : (⟨S400000x1, .f32⟩ : BufTy).Contents (Elt F)) (c : (⟨S400000x128, .f32⟩ : BufTy).Contents (Elt F)) :
    (⟨S400000x128, .f32⟩ : BufTy).Contents (Elt F) :=
  mulf (broadcastInDim S400000x128 ![0, 1] bcast_S400000x1_S400000x128_0_1 eb) c

/-- The weights summed per source. -/
def ebSum (src : (⟨S400000, .i32⟩ : BufTy).Contents (Elt F)) (eb : (⟨S400000x1, .f32⟩ : BufTy).Contents (Elt F)) :
    (⟨S100000x1, .f32⟩ : BufTy).Contents (Elt F) :=
  Host.scatterAdd scatter_S100000x1_S400000x1_S400000x1_1_0_0_1
    (broadcastInDim S100000x1 ![] bcast_S_S100000x1 (constant S_ .f32 0x00000000#32))
    (broadcastInDim S400000x1 ![0] bcast_S400000_S400000x1_0 src) eb

/-- The weighted rows summed per source. -/
def hSum (src : (⟨S400000, .i32⟩ : BufTy).Contents (Elt F)) (t1 : (⟨S400000x128, .f32⟩ : BufTy).Contents (Elt F)) :
    (⟨S100000x128, .f32⟩ : BufTy).Contents (Elt F) :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 src) t1

/-- The weight sums with the zero ones replaced by the float 1e-12. -/
def guardSum (s : (⟨S100000x1, .f32⟩ : BufTy).Contents (Elt F)) : (⟨S100000x1, .f32⟩ : BufTy).Contents (Elt F) :=
  select (cmpf .oeq s (broadcastInDim S100000x1 ![] bcast_S_S100000x1 (constant S_ .f32 0x00000000#32)))
    (broadcastInDim S100000x1 ![] bcast_S_S100000x1 (id (constant S_ .f32 0x2B8CBCCC#32))) s

/-- The entity rows before the elu: row sums over guarded weight sums. -/
def hEnt (src : (⟨S400000, .i32⟩ : BufTy).Contents (Elt F)) (eb : (⟨S400000x1, .f32⟩ : BufTy).Contents (Elt F))
    (t1 : (⟨S400000x128, .f32⟩ : BufTy).Contents (Elt F)) : (⟨S100000x128, .f32⟩ : BufTy).Contents (Elt F) :=
  Host.divf (hSum src t1) (broadcastInDim S100000x128 ![0, 1] bcast_S100000x1_S100000x128_0_1 (guardSum (ebSum src eb)))

/-- The relation rows before the elu: row sums per relation over the edge counts (at least one). -/
def hRel (rl : (⟨S400000, .i32⟩ : BufTy).Contents (Elt F)) (t1 : (⟨S400000x128, .f32⟩ : BufTy).Contents (Elt F)) :
    (⟨S237x128, .f32⟩ : BufTy).Contents (Elt F) :=
  Host.divf
    (Host.scatterAdd scatter_S237x128_S400000x1_S400000x128_1_0_0_1
      (broadcastInDim S237x128 ![] bcast_S_S237x128 (constant S_ .f32 0x00000000#32))
      (broadcastInDim S400000x1 ![0] bcast_S400000_S400000x1_0 rl) t1)
    (broadcastInDim S237x128 ![0, 1] bcast_S237x1_S237x128_0_1
      (maximumf
        (Host.scatterAdd scatter_S237x1_S400000x1_S400000x1_1_0_0_1
          (broadcastInDim S237x1 ![] bcast_S_S237x1 (constant S_ .f32 0x00000000#32))
          (broadcastInDim S400000x1 ![0] bcast_S400000_S400000x1_0 rl)
          (broadcastInDim S400000x1 ![] bcast_S_S400000x1 (constant S_ .f32 0x3F800000#32)))
        (broadcastInDim S237x1 ![] bcast_S_S237x1 (constant S_ .f32 0x3F800000#32))))

/-- elu over the entity rows: x where positive, else exp(x) - 1 (taken at zero where x is positive). -/
def eluEnt (x : (⟨S100000x128, .f32⟩ : BufTy).Contents (Elt F)) : (⟨S100000x128, .f32⟩ : BufTy).Contents (Elt F) :=
  select (cmpf .ogt x (broadcastInDim S100000x128 ![] bcast_S_S100000x128 (constant S_ .f32 0x00000000#32))) x
    (mulf (broadcastInDim S100000x128 ![] bcast_S_S100000x128 (constant S_ .f32 0x3F800000#32))
      (Host.expm1 (select (cmpf .ogt x (broadcastInDim S100000x128 ![] bcast_S_S100000x128 (constant S_ .f32 0x00000000#32)))
        (broadcastInDim S100000x128 ![] bcast_S_S100000x128 (id (constant S_ .f32 0x00000000#32))) x)))

/-- elu over the relation rows. -/
def eluRel (x : (⟨S237x128, .f32⟩ : BufTy).Contents (Elt F)) : (⟨S237x128, .f32⟩ : BufTy).Contents (Elt F) :=
  select (cmpf .ogt x (broadcastInDim S237x128 ![] bcast_S_S237x128 (constant S_ .f32 0x00000000#32))) x
    (mulf (broadcastInDim S237x128 ![] bcast_S_S237x128 (constant S_ .f32 0x3F800000#32))
      (Host.expm1 (select (cmpf .ogt x (broadcastInDim S237x128 ![] bcast_S_S237x128 (constant S_ .f32 0x00000000#32)))
        (broadcastInDim S237x128 ![] bcast_S_S237x128 (id (constant S_ .f32 0x00000000#32))) x)))

/-- The attention weights of all edges, from the seven inputs. -/
def ebOf (trip : (⟨S400000x3, .i32⟩ : BufTy).Contents (Elt F)) (ent : (⟨S100000x128, .f32⟩ : BufTy).Contents (Elt F))
    (rel : (⟨S237x128, .f32⟩ : BufTy).Contents (Elt F)) (wa : (⟨S128x384, .f32⟩ : BufTy).Contents (Elt F))
    (ba : (⟨S128, .f32⟩ : BufTy).Contents (Elt F)) (wa2 : (⟨S1x128, .f32⟩ : BufTy).Contents (Elt F))
    (ba2 : (⟨S1, .f32⟩ : BufTy).Contents (Elt F)) : (⟨S400000x1, .f32⟩ : BufTy).Contents (Elt F) :=
  ebCol (zCol (cMat (feat trip ent rel) (wT wa) ba) wa2 ba2)

/-- The weighted rows of all edges, from the seven inputs. -/
def t1Of (trip : (⟨S400000x3, .i32⟩ : BufTy).Contents (Elt F)) (ent : (⟨S100000x128, .f32⟩ : BufTy).Contents (Elt F))
    (rel : (⟨S237x128, .f32⟩ : BufTy).Contents (Elt F)) (wa : (⟨S128x384, .f32⟩ : BufTy).Contents (Elt F))
    (ba : (⟨S128, .f32⟩ : BufTy).Contents (Elt F)) (wa2 : (⟨S1x128, .f32⟩ : BufTy).Contents (Elt F))
    (ba2 : (⟨S1, .f32⟩ : BufTy).Contents (Elt F)) : (⟨S400000x128, .f32⟩ : BufTy).Contents (Elt F) :=
  t1Mat (ebOf trip ent rel wa ba wa2 ba2) (cMat (feat trip ent rel) (wT wa) ba)

/-- The first result: the entity rows. -/
def outEnt (trip : (⟨S400000x3, .i32⟩ : BufTy).Contents (Elt F)) (ent : (⟨S100000x128, .f32⟩ : BufTy).Contents (Elt F))
    (rel : (⟨S237x128, .f32⟩ : BufTy).Contents (Elt F)) (wa : (⟨S128x384, .f32⟩ : BufTy).Contents (Elt F))
    (ba : (⟨S128, .f32⟩ : BufTy).Contents (Elt F)) (wa2 : (⟨S1x128, .f32⟩ : BufTy).Contents (Elt F))
    (ba2 : (⟨S1, .f32⟩ : BufTy).Contents (Elt F)) : (⟨S100000x128, .f32⟩ : BufTy).Contents (Elt F) :=
  eluEnt (hEnt (col0 trip) (ebOf trip ent rel wa ba wa2 ba2) (t1Of trip ent rel wa ba wa2 ba2))

/-- The second result: the relation rows. -/
def outRel (trip : (⟨S400000x3, .i32⟩ : BufTy).Contents (Elt F)) (ent : (⟨S100000x128, .f32⟩ : BufTy).Contents (Elt F))
    (rel : (⟨S237x128, .f32⟩ : BufTy).Contents (Elt F)) (wa : (⟨S128x384, .f32⟩ : BufTy).Contents (Elt F))
    (ba : (⟨S128, .f32⟩ : BufTy).Contents (Elt F)) (wa2 : (⟨S1x128, .f32⟩ : BufTy).Contents (Elt F))
    (ba2 : (⟨S1, .f32⟩ : BufTy).Contents (Elt F)) : (⟨S237x128, .f32⟩ : BufTy).Contents (Elt F) :=
  eluRel (hRel (col2 trip) (t1Of trip ent rel wa ba wa2 ba2))

end Cert.Spec

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.Rows.lean ====
/-
  One edge at a time. For an edge with feature row h (384 entries), the transposed weight W' (384 x 128), the bias b,
  the second weight row w2 and the scalar b2, over the extended reals:

    hidden entry q :  c(q) = (sum over k of h(k) * W'(k, q)) + b(q)
    score          :  z    = (sum over q of c(q) * w2(q)) + b2
    weight         :  a    = exp (z if z >= 0 else 0.01f * z)
    weighted entry :  t(q) = a * c(q)

  The kernel computes these from a block of 4000 feature rows (a product into a zero accumulator, a lane sum kept as a
  column); the host program computes them from all 400000 rows (two products). Read at one entry both are the formulas
  above: a product into a zero accumulator is the plain sum of products, a lane sum is the plain sum, a change of float
  format is the identity on the extended reals.
-/
import proofs.«175567_j49082886259211_1_alg».proof.Proof.Gen.KernelIdeal.Skeleton
import proofs.«175567_j49082886259211_1_alg».proof.Proof.Spec
import proofs.«175567_j49082886259211_1_alg».proof.Proof.LibPlainMatmul
import proofs.«175567_j49082886259211_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.Rows

open Idealize.ShloMosaic Idealize.ShloMosaic.ValueIdx

/-- An edge's hidden entry q. -/
def hid (h : Fin 384 → Ideal .f32) (w : Fin 384 → Fin 128 → Ideal .f32) (b : Fin 128 → Ideal .f32) (q : Fin 128) : Ideal .f32 :=
  (∑ k : Fin 384, h k * w k q) + b q

/-- An edge's score. -/
def score (c : Fin 128 → Ideal .f32) (w2 : Fin 128 → Ideal .f32) (b2 : Ideal .f32) : Ideal .f32 :=
  (∑ q : Fin 128, c q * w2 q) + b2

/-- An edge's attention weight from its score. -/
def att (z : Ideal .f32) : Ideal .f32 :=
  Ideal.exp (Scalar.select (FloatOps.cmpf (F := Ideal) .oge z (Ideal.ofBits .f32 0x00000000#32)) z
    (Ideal.ofBits .f32 0x3C23D70A#32 * z))

/-! ## The kernel's block values at an entry -/

section Kernel
open Cert.KernelIdeal Cert.KernelIdeal.Gen

theorem pay1_at (x0 : Vec Ideal S4000x384 .f32) (x1 : Vec Ideal S384x128 .f32) (x2 : Vec Ideal S128 .f32) (p : Fin 4000) (q : Fin 128) :
    (k0_pay1 (F := Ideal) x0 x1 x2) (ix2 p q)
      = hid (fun k => x0 (ix2 p k)) (fun k q => x1 (ix2 k q)) (fun q => x2 (ix1 q)) q := by
  unfold k0_pay1 hid
  refine congrArg₂ (· + ·) ?_ ?_
  · refine (LibPlainMatmul.matmul_plain_apply (M := 4000) (K := 384) (N := 128) none _ _ p q).trans ?_
    refine Finset.sum_congr rfl fun k _ => ?_
    rw [shapeCast_self, shapeCast_self]
    rfl
  · refine (broadcastTo_1b_ab_apply _ _ p q).trans ?_
    exact shapeCast_a_1a_apply _ _ 0 q

theorem pay2_at (x0 : Vec Ideal S4000x384 .f32) (x1 : Vec Ideal S384x128 .f32) (x2 : Vec Ideal S128 .f32)
    (x3 : Vec Ideal S1x128 .f32) (x4 : Vec Ideal S1 .f32) (p : Fin 4000) (u : Fin 1) :
    (k0_pay2 (F := Ideal) x0 x1 x2 x3 x4) (ix2 p u)
      = att (score (fun q => (k0_pay1 (F := Ideal) x0 x1 x2) (ix2 p q)) (fun q => x3 (ix2 (0 : Fin 1) q)) (x4 (ix1 (0 : Fin 1)))) := by
  have hu : u = 0 := Subsingleton.elim _ _
  subst hu
  have hz : (addf (shapeCast S4000x1 (multiReduction (F := Ideal) .add [1] S4000
        (mulf (k0_pay1 (F := Ideal) x0 x1 x2) (broadcastTo S4000x128 x3 Facts₀.broadcasts_S1x128_S4000x128)) 0x00000000#32
        Facts₀.reduces_S4000x128_S4000 (.inl rfl) rfl) Facts₀.shapeCasts_S4000_S4000x1)
      (broadcastTo S4000x1 (shapeCast S1x1 x4 Facts₀.shapeCasts_S1_S1x1) Facts₀.broadcasts_S1x1_S4000x1)) (ix2 p (0 : Fin 1))
      = score (fun q => (k0_pay1 (F := Ideal) x0 x1 x2) (ix2 p q)) (fun q => x3 (ix2 (0 : Fin 1) q)) (x4 (ix1 (0 : Fin 1))) := by
    unfold score
    refine congrArg₂ (· + ·) ?_ ?_
    · refine (KeepdimsColumn.shapeCast_a_a1_apply (a := 4000) _ _ p (0 : Fin 1)).trans ?_
      refine (KeepdimsColumn.laneSum_apply (a := 4000) (b := 128) (φ := .f32)
        (mulf (k0_pay1 (F := Ideal) x0 x1 x2) (broadcastTo S4000x128 x3 Facts₀.broadcasts_S1x128_S4000x128)) 0x00000000#32
        Facts₀.reduces_S4000x128_S4000 (.inl rfl) rfl p).trans ?_
      refine Finset.sum_congr rfl fun q _ => ?_
      show (k0_pay1 (F := Ideal) x0 x1 x2) (ix2 p q) * broadcastTo S4000x128 x3 _ (ix2 p q) = _
      rw [broadcastTo_1b_ab_apply]
    · refine (broadcastTo_1b_ab_apply (a := 4000) (b := 1) _ _ p (0 : Fin 1)).trans ?_
      exact shapeCast_a_1a_apply (a := 1) _ _ (0 : Fin 1) (0 : Fin 1)
  unfold k0_pay2 att
  exact congrArg (fun z : Ideal .f32 => Ideal.exp (Scalar.select (FloatOps.cmpf (F := Ideal) .oge z (Ideal.ofBits .f32 0x00000000#32)) z
    (Ideal.ofBits .f32 0x3C23D70A#32 * z))) hz

theorem pay3_at (x0 : Vec Ideal S4000x384 .f32) (x1 : Vec Ideal S384x128 .f32) (x2 : Vec Ideal S128 .f32)
    (x3 : Vec Ideal S1x128 .f32) (x4 : Vec Ideal S1 .f32) (p : Fin 4000) (q : Fin 128) :
    (k0_pay3 (F := Ideal) x0 x1 x2 x3 x4) (ix2 p q)
      = (k0_pay2 (F := Ideal) x0 x1 x2 x3 x4) (ix2 p (0 : Fin 1)) * (k0_pay1 (F := Ideal) x0 x1 x2) (ix2 p q) := by
  unfold k0_pay3
  show broadcastTo S4000x128 _ _ (ix2 p q) * _ = _
  rw [KeepdimsColumn.broadcastTo_a1_ab_apply]

end Kernel

/-! ## The host program's arrays at an entry -/

section Host
open Cert.ReferenceIdeal

theorem cMat_at (h : (⟨S400000x384, .f32⟩ : BufTy).Contents (Elt Ideal)) (wt : (⟨S384x128, .f32⟩ : BufTy).Contents (Elt Ideal))
    (ba : (⟨S128, .f32⟩ : BufTy).Contents (Elt Ideal)) (e : Fin 400000) (q : Fin 128) :
    Cert.Spec.cMat (F := Ideal) h wt ba (ix2 e q)
      = hid (fun k => h (ix2 e k)) (fun k q => wt (ix2 k q)) (fun q => ba (ix1 q)) q := by
  unfold Cert.Spec.cMat hid
  refine congrArg₂ (· + ·) ?_ ?_
  · exact LibPlainMatmul.dotGeneral_plain_apply (M := 400000) (K := 384) (N := 128) none h wt e q
  · refine (broadcastInDim_apply _ _ _ (ix2 e q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl

theorem zCol_at (c : (⟨S400000x128, .f32⟩ : BufTy).Contents (Elt Ideal)) (wa2 : (⟨S1x128, .f32⟩ : BufTy).Contents (Elt Ideal))
    (ba2 : (⟨S1, .f32⟩ : BufTy).Contents (Elt Ideal)) (e : Fin 400000) (u : Fin 1) :
    Cert.Spec.zCol (F := Ideal) c wa2 ba2 (ix2 e u)
      = score (fun q => c (ix2 e q)) (fun q => wa2 (ix2 (0 : Fin 1) q)) (ba2 (ix1 (0 : Fin 1))) := by
  unfold Cert.Spec.zCol score
  refine congrArg₂ (· + ·) ?_ ?_
  · refine (LibPlainMatmul.dotGeneral_plain_apply (M := 400000) (K := 128) (N := 1) none c _ e u).trans ?_
    refine Finset.sum_congr rfl fun q _ => ?_
    rw [transpose_ix2_apply]
    have hu : u = 0 := Subsingleton.elim _ _
    rw [hu]
  · refine (broadcastInDim_apply _ _ _ (ix2 e u) (ix2 (0 : Fin 1) (0 : Fin 1)) fun a => ?_).trans ?_
    · match a with
      | ⟨0, _⟩ => rfl
      | ⟨1, _⟩ => rfl
    · refine broadcastInDim_apply _ _ _ (ix2 (0 : Fin 1) (0 : Fin 1)) (ix1 (0 : Fin 1)) fun a => ?_
      match a with
      | ⟨0, _⟩ => rfl

theorem ebCol_at (z : (⟨S400000x1, .f32⟩ : BufTy).Contents (Elt Ideal)) (e : Fin 400000) (u : Fin 1) :
    Cert.Spec.ebCol (F := Ideal) z (ix2 e u) = att (z (ix2 e u)) := by
  unfold Cert.Spec.ebCol att
  rfl

theorem t1Mat_at (eb : (⟨S400000x1, .f32⟩ : BufTy).Contents (Elt Ideal)) (c : (⟨S400000x128, .f32⟩ : BufTy).Contents (Elt Ideal))
    (e : Fin 400000) (q : Fin 128) :
    Cert.Spec.t1Mat (F := Ideal) eb c (ix2 e q) = eb (ix2 e (0 : Fin 1)) * c (ix2 e q) := by
  unfold Cert.Spec.t1Mat
  show broadcastInDim S400000x128 ![0, 1] _ eb (ix2 e q) * _ = _
  rw [broadcastInDim_apply _ _ eb (ix2 e q) (ix2 e (0 : Fin 1)) fun a => by
    match a with
    | ⟨0, _⟩ => rfl
    | ⟨1, _⟩ => rfl]

end Host

end Cert.Rows

end
-- ==== Proof.KIValue.lean ====
/-
  The kernel's two result arrays after the run, as whole-array functions.

  The grid has a hundred points. Point t reads rows 4000 t … 4000 t + 3999 of the 400000 x 384 feature matrix and the
  whole of the weight, the bias, the second weight row and the scalar bias, and stores two blocks: rows
  4000 t … 4000 t + 3999 of the weighted rows (400000 x 128) and of the attention-weight column (400000 x 1).

  Entry by entry, what point t stores in row p of its blocks is what the whole-array stages give at edge 4000 t + p:
  the hidden entry  c(e, q) = (sum over k of h(e, k) * W'(k, q)) + b(q),  the score  z(e) = (sum over q of c(e, q) * w2(q)) + b2,
  the weight  a(e) = exp (z(e) if z(e) >= 0 else 0.01f * z(e))  and the weighted entry  t(e, q) = a(e) * c(e, q),  because a
  block of the feature matrix read at row p is the matrix read at row 4000 t + p and every other block read is its whole
  array. So each point writes back its block of one function of the arrays. Row r of either result lies in the block of
  point r / 4000 and every point writes its block back, so the blocks fill both arrays: after the run the second
  result is the attention-weight column of all edges and the first is the weighted rows of all edges.
-/
import proofs.«175567_j49082886259211_1_alg».proof.Proof.KIFrame
import proofs.«175567_j49082886259211_1_alg».proof.Proof.Rows
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The arrays the kernel meets, and the two arrays it leaves -/

/-- The attention-weight column of all edges, from the arrays as the kernel meets them. -/
def EB (c : Dev nD) : (⟨S400000x1, .f32⟩ : BufTy).Contents (Elt Ideal) :=
  Cert.Spec.ebCol (Cert.Spec.zCol (Cert.Spec.cMat (V m c main_v27) (V m c main_v28) (V m c main_arg4)) (V m c main_arg5) (V m c main_arg6))

/-- The weighted rows of all edges. -/
def T1 (c : Dev nD) : (⟨S400000x128, .f32⟩ : BufTy).Contents (Elt Ideal) :=
  Cert.Spec.t1Mat (EB m c) (Cert.Spec.cMat (V m c main_v27) (V m c main_v28) (V m c main_arg4))

/-! ## The grid: a hundred points, point t holding rows 4000 t … 4000 t + 3999 -/

theorem hz : (![0, 0] : Fin 2 → Nat) = fun _ => 0 := funext fun a => by fin_cases a <;> rfl
theorem hz1 : (![0] : Fin 1 → Nat) = fun _ => 0 := funext fun a => by fin_cases a; rfl

/-- A grid point is below 100. -/
theorem pt_lt (t : Fin cfg0.N) : t.val < 100 := lt_of_lt_of_eq t.isLt N_0

/-- Row p of point t's block is a row of the array. -/
theorem row_lt (t : Fin cfg0.N) (p : Fin 4000) : t.val * 4000 + p.val < 400000 := by
  have h := pt_lt t
  have hp := p.isLt
  omega

/-- Row p of point t's block, as a row of the array. -/
def row (t : Fin cfg0.N) (p : Fin 4000) : Fin 400000 := ⟨t.val * 4000 + p.val, row_lt t p⟩

/-- The block index of each window at each point: the edge blocks move with the point, the whole windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The blocks read, as parts of their arrays -/

abbrev xb0 (c : Dev nD) (t : Fin cfg0.N) : Vec Ideal S4000x384 .f32 := iblk m c 0 t
abbrev xb1 (c : Dev nD) (t : Fin cfg0.N) : Vec Ideal S384x128 .f32 := iblk m c 1 t
abbrev xb2 (c : Dev nD) (t : Fin cfg0.N) : Vec Ideal S128 .f32 := iblk m c 2 t
abbrev xb3 (c : Dev nD) (t : Fin cfg0.N) : Vec Ideal S1x128 .f32 := iblk m c 3 t
abbrev xb4 (c : Dev nD) (t : Fin cfg0.N) : Vec Ideal S1 .f32 := iblk m c 4 t

abbrev aH (c : Dev nD) : Vec Ideal S400000x384 .f32 := V m c main_v27
abbrev aW (c : Dev nD) : Vec Ideal S384x128 .f32 := V m c main_v28
abbrev aB (c : Dev nD) : Vec Ideal S128 .f32 := V m c main_arg4
abbrev aW2 (c : Dev nD) : Vec Ideal S1x128 .f32 := V m c main_arg5
abbrev aB2 (c : Dev nD) : Vec Ideal S1 .f32 := V m c main_arg6

/-- Row p of the feature block at point t is row 4000 t + p of the feature matrix. -/
theorem xb0_at (c : Dev nD) (t : Fin cfg0.N) (p : Fin 4000) (k : Fin 384) :
    xb0 m c t (ix2 p k) = aH m c (ix2 (row t p) k) := by
  show V m c main_v27 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 4000 + 1 * p.val = t.val * 4000 + p.val; omega
  | ⟨1, _⟩ => show win0_0.index t (1 : Fin 2) * 384 + 1 * k.val = k.val; omega

/-- The weight block is the weight. -/
theorem xb1_at (c : Dev nD) (t : Fin cfg0.N) (k : Fin 384) (q : Fin 128) :
    xb1 m c t (ix2 k q) = aW m c (ix2 k q) := by
  show V m c main_v28 (((cfg0.win 1).blk t).view.emb (ix2 k q)) = _
  refine congrArg _ (funext fun a => Fin.ext ?_)
  obtain ⟨-, -, e0, e1, -⟩ := idx_facts t
  match a with
  | ⟨0, _⟩ => show win0_1.index t (0 : Fin 2) * 384 + 1 * k.val = k.val; omega
  | ⟨1, _⟩ => show win0_1.index t (1 : Fin 2) * 128 + 1 * q.val = q.val; omega

/-- The bias block is the bias. -/
theorem xb2_at (c : Dev nD) (t : Fin cfg0.N) (q : Fin 128) :
    xb2 m c t (ix1 q) = aB m c (ix1 q) := by
  show V m c main_arg4 (((cfg0.win 2).blk t).view.emb (ix1 q)) = _
  refine congrArg _ (funext fun a => Fin.ext ?_)
  obtain ⟨-, -, -, -, e0, -⟩ := idx_facts t
  match a with
  | ⟨0, _⟩ => show win0_2.index t (0 : Fin 1) * 128 + 1 * q.val = q.val; omega

/-- The second weight's block is the second weight. -/
theorem xb3_at (c : Dev nD) (t : Fin cfg0.N) (u : Fin 1) (q : Fin 128) :
    xb3 m c t (ix2 u q) = aW2 m c (ix2 u q) := by
  show V m c main_arg5 (((cfg0.win 3).blk t).view.emb (ix2 u q)) = _
  refine congrArg _ (funext fun a => Fin.ext ?_)
  obtain ⟨-, -, -, -, -, e0, e1, -⟩ := idx_facts t
  match a with
  | ⟨0, _⟩ => show win0_3.index t (0 : Fin 2) * 1 + 1 * u.val = u.val; omega
  | ⟨1, _⟩ => show win0_3.index t (1 : Fin 2) * 128 + 1 * q.val = q.val; omega

/-- The scalar bias's block is the scalar bias. -/
theorem xb4_at (c : Dev nD) (t : Fin cfg0.N) (u : Fin 1) :
    xb4 m c t (ix1 u) = aB2 m c (ix1 u) := by
  show V m c main_arg6 (((cfg0.win 4).blk t).view.emb (ix1 u)) = _
  refine congrArg _ (funext fun a => Fin.ext ?_)
  obtain ⟨-, -, -, -, -, -, -, e0, -⟩ := idx_facts t
  match a with
  | ⟨0, _⟩ => show win0_4.index t (0 : Fin 1) * 1 + 1 * u.val = u.val; omega

/-! ## Which rows a point's block holds, and that the blocks fill the array -/

/-- An index of the weight column is in point t's block iff each coordinate is in the block's range. -/
theorem mem_blk6 (t : Fin cfg0.N) (i : S400000x1.Idx) :
    i ∈ ((cfg0.win 6).blk t).view.set ↔ ∀ a : Fin 2, win0_6.index t a * S4000x1.size a ≤ (i a).val ∧ (i a).val < win0_6.index t a * S4000x1.size a + S4000x1.size a := by
  show i ∈ ((View.whole main_v29_1).slice (win0_6.rect t)).set ↔ _
  rw [View.set_slice_whole, Rect.mem_set_unit]
  exact Iff.rfl

/-- The same for the weighted rows. -/
theorem mem_blk5 (t : Fin cfg0.N) (i : S400000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v29_0).slice (win0_5.rect t)).set ↔ _
  rw [View.set_slice_whole, Rect.mem_set_unit]
  exact Iff.rfl

/-- The point whose block holds row r: r / 4000. -/
def ptOf (r : Fin 400000) : Fin cfg0.N :=
  ⟨r.val / 4000, lt_of_lt_of_eq (by have := r.isLt; omega : r.val / 4000 < 100) N_0.symm⟩

/-- Every entry of the weight column is in the block of some point, and every point writes its block back. -/
theorem cover6 (i : S400000x1.Idx) :
    ∃ t : Fin cfg0.N, (cfg0.win 6).flush t = true ∧ i ∈ ((cfg0.win 6).blk t).view.set := by
  have hi0 : (i 0).val < 400000 := (i 0).isLt
  have hi1 : (i 1).val < 1 := (i 1).isLt
  have ht : (ptOf (i 0)).val = (i 0).val / 4000 := rfl
  obtain ⟨-, -, -, -, -, -, -, -, -, -, e0, e1⟩ := idx_facts (ptOf (i 0))
  refine ⟨ptOf (i 0), flush0_6 _, ?_⟩
  rw [mem_blk6]
  intro a
  match a with
  | ⟨0, _⟩ => show win0_6.index (ptOf (i 0)) (0 : Fin 2) * 4000 ≤ (i 0).val ∧ (i 0).val < win0_6.index (ptOf (i 0)) (0 : Fin 2) * 4000 + 4000; omega
  | ⟨1, _⟩ => show win0_6.index (ptOf (i 0)) (1 : Fin 2) * 1 ≤ (i 1).val ∧ (i 1).val < win0_6.index (ptOf (i 0)) (1 : Fin 2) * 1 + 1; omega

/-- The same for the weighted rows. -/
theorem cover5 (i : S400000x128.Idx) :
    ∃ t : Fin cfg0.N, (cfg0.win 5).flush t = true ∧ i ∈ ((cfg0.win 5).blk t).view.set := by
  have hi0 : (i 0).val < 400000 := (i 0).isLt
  have hi1 : (i 1).val < 128 := (i 1).isLt
  have ht : (ptOf (i 0)).val = (i 0).val / 4000 := rfl
  obtain ⟨-, -, -, -, -, -, -, -, e0, e1, -⟩ := idx_facts (ptOf (i 0))
  refine ⟨ptOf (i 0), flush0_5 _, ?_⟩
  rw [mem_blk5]
  intro a
  match a with
  | ⟨0, _⟩ => show win0_5.index (ptOf (i 0)) (0 : Fin 2) * 4000 ≤ (i 0).val ∧ (i 0).val < win0_5.index (ptOf (i 0)) (0 : Fin 2) * 4000 + 4000; omega
  | ⟨1, _⟩ => show win0_5.index (ptOf (i 0)) (1 : Fin 2) * 128 ≤ (i 1).val ∧ (i 1).val < win0_5.index (ptOf (i 0)) (1 : Fin 2) * 128 + 128; omega

/-- Where entry (p, u) of point t's block of the weight column sits in the array. -/
theorem emb6 (t : Fin cfg0.N) (p : Fin 4000) (u : Fin 1) :
    ((cfg0.win 6).blk t).view.emb (ix2 p u) = (ix2 (row t p) u : S400000x1.Idx) := by
  refine funext fun a => Fin.ext ?_
  obtain ⟨-, -, -, -, -, -, -, -, -, -, e0, e1⟩ := idx_facts t
  match a with
  | ⟨0, _⟩ => show win0_6.index t (0 : Fin 2) * 4000 + 1 * p.val = t.val * 4000 + p.val; omega
  | ⟨1, _⟩ => show win0_6.index t (1 : Fin 2) * 1 + 1 * u.val = u.val; omega

/-- Where entry (p, q) of point t's block of the weighted rows sits in the array. -/
theorem emb5 (t : Fin cfg0.N) (p : Fin 4000) (q : Fin 128) :
    ((cfg0.win 5).blk t).view.emb (ix2 p q) = (ix2 (row t p) q : S400000x128.Idx) := by
  refine funext fun a => Fin.ext ?_
  obtain ⟨-, -, -, -, -, -, -, -, e0, e1, -⟩ := idx_facts t
  match a with
  | ⟨0, _⟩ => show win0_5.index t (0 : Fin 2) * 4000 + 1 * p.val = t.val * 4000 + p.val; omega
  | ⟨1, _⟩ => show win0_5.index t (1 : Fin 2) * 128 + 1 * q.val = q.val; omega

/-! ## One entry of what a point stores -/

/-- The hidden entry depends only on the values of the row, the weight and the bias. -/
theorem hid_congr {h h' : Fin 384 → Ideal .f32} {w w' : Fin 384 → Fin 128 → Ideal .f32} {b b' : Fin 128 → Ideal .f32} (q : Fin 128)
    (hh : ∀ k, h k = h' k) (hw : ∀ k q, w k q = w' k q) (hb : ∀ q, b q = b' q) :
    Cert.Rows.hid h w b q = Cert.Rows.hid h' w' b' q := by
  have e1 : h = h' := funext hh
  have e2 : w = w' := funext fun k => funext (hw k)
  have e3 : b = b' := funext hb
  rw [e1, e2, e3]

/-- The score depends only on the values of the hidden row, the second weight and the scalar bias. -/
theorem score_congr {x x' : Fin 128 → Ideal .f32} {w w' : Fin 128 → Ideal .f32} {b b' : Ideal .f32}
    (hx : ∀ q, x q = x' q) (hw : ∀ q, w q = w' q) (hb : b = b') :
    Cert.Rows.score x w b = Cert.Rows.score x' w' b' := by
  have e1 : x = x' := funext hx
  have e2 : w = w' := funext hw
  rw [e1, e2, hb]

/-- The hidden entry the kernel forms in row p of point t's block is the hidden entry of edge 4000 t + p. -/
theorem hid_at (c : Dev nD) (t : Fin cfg0.N) (p : Fin 4000) (q : Fin 128) :
    k0_pay1 (F := Ideal) (xb0 m c t) (xb1 m c t) (xb2 m c t) (ix2 p q)
      = Cert.Spec.cMat (F := Ideal) (aH m c) (aW m c) (aB m c) (ix2 (row t p) q) :=
  (Cert.Rows.pay1_at (xb0 m c t) (xb1 m c t) (xb2 m c t) p q).trans
    ((hid_congr q (fun k => xb0_at m c t p k) (fun k q => xb1_at m c t k q) (fun q => xb2_at m c t q)).trans
      (Cert.Rows.cMat_at (aH m c) (aW m c) (aB m c) (row t p) q).symm)

/-- The weight the kernel forms for row p of point t's block is the weight of edge 4000 t + p. -/
theorem att_at (c : Dev nD) (t : Fin cfg0.N) (p : Fin 4000) (u : Fin 1) :
    k0_pay2 (F := Ideal) (xb0 m c t) (xb1 m c t) (xb2 m c t) (xb3 m c t) (xb4 m c t) (ix2 p u)
      = EB m c (ix2 (row t p) u) := by
  refine (Cert.Rows.pay2_at (xb0 m c t) (xb1 m c t) (xb2 m c t) (xb3 m c t) (xb4 m c t) p u).trans ?_
  show _ = Cert.Spec.ebCol (F := Ideal) (Cert.Spec.zCol (F := Ideal) (Cert.Spec.cMat (F := Ideal) (aH m c) (aW m c) (aB m c)) (aW2 m c) (aB2 m c)) (ix2 (row t p) u)
  refine Eq.trans ?_ (Cert.Rows.ebCol_at (Cert.Spec.zCol (F := Ideal) (Cert.Spec.cMat (F := Ideal) (aH m c) (aW m c) (aB m c)) (aW2 m c) (aB2 m c)) (row t p) u).symm
  refine congrArg Cert.Rows.att ?_
  refine Eq.trans ?_ (Cert.Rows.zCol_at (Cert.Spec.cMat (F := Ideal) (aH m c) (aW m c) (aB m c)) (aW2 m c) (aB2 m c) (row t p) u).symm
  exact score_congr (fun q => hid_at m c t p q) (fun q => xb3_at m c t 0 q) (xb4_at m c t 0)

/-- The weighted entry the kernel forms in row p of point t's block is the weighted entry of edge 4000 t + p. -/
theorem t1_at (c : Dev nD) (t : Fin cfg0.N) (p : Fin 4000) (q : Fin 128) :
    k0_pay3 (F := Ideal) (xb0 m c t) (xb1 m c t) (xb2 m c t) (xb3 m c t) (xb4 m c t) (ix2 p q)
      = T1 m c (ix2 (row t p) q) := by
  refine (Cert.Rows.pay3_at (xb0 m c t) (xb1 m c t) (xb2 m c t) (xb3 m c t) (xb4 m c t) p q).trans ?_
  show _ = Cert.Spec.t1Mat (F := Ideal) (EB m c) (Cert.Spec.cMat (F := Ideal) (aH m c) (aW m c) (aB m c)) (ix2 (row t p) q)
  refine Eq.trans ?_ (Cert.Rows.t1Mat_at (EB m c) (Cert.Spec.cMat (F := Ideal) (aH m c) (aW m c) (aB m c)) (row t p) q).symm
  exact congrArg₂ (· * ·) (att_at m c t p 0) (hid_at m c t p q)

/-! ## What a point writes back is its block of the whole array -/

/-- Point t writes back block t of the weight column of all edges. -/
theorem flushed_eq6 (c : Dev nD) (t : Fin cfg0.N) :
    (dats m 0 c).flushed 6 t = ((cfg0.win 6).blk t).view.read (Elt Ideal) (EB m c) := by
  show (cfg0.win 6).cut (grid0.coords t) ((dats m 0 c).after 6 t) = _
  rw [after_6]
  unfold blockE
  rw [View.canon_unit_zero hz]
  simp only [View.ld_unit_zero (S := S4000x384) hz, View.ld_unit_zero (S := S384x128) hz, View.ld_unit_zero (S := S128) hz1,
    View.ld_unit_zero (S := S1x128) hz, View.ld_unit_zero (S := S1) hz1]
  funext j
  obtain ⟨p, u, rfl⟩ : ∃ (p : Fin 4000) (u : Fin 1), (j : S4000x1.Idx) = ix2 p u := ⟨(j : S4000x1.Idx) 0, (j : S4000x1.Idx) 1, eq_ix2 _⟩
  show k0_pay2 (F := Ideal) (xb0 m c t) (xb1 m c t) (xb2 m c t) (xb3 m c t) (xb4 m c t) (ix2 p u)
    = EB m c (((cfg0.win 6).blk t).view.emb (ix2 p u))
  rw [emb6]
  exact att_at m c t p u

/-- Point t writes back block t of the weighted rows of all edges. -/
theorem flushed_eq5 (c : Dev nD) (t : Fin cfg0.N) :
    (dats m 0 c).flushed 5 t = ((cfg0.win 5).blk t).view.read (Elt Ideal) (T1 m c) := by
  show (cfg0.win 5).cut (grid0.coords t) ((dats m 0 c).after 5 t) = _
  rw [after_5]
  unfold blockT
  rw [View.canon_unit_zero hz]
  simp only [View.ld_unit_zero (S := S4000x384) hz, View.ld_unit_zero (S := S384x128) hz, View.ld_unit_zero (S := S128) hz1,
    View.ld_unit_zero (S := S1x128) hz, View.ld_unit_zero (S := S1) hz1]
  funext j
  obtain ⟨p, q, rfl⟩ : ∃ (p : Fin 4000) (q : Fin 128), (j : S4000x128.Idx) = ix2 p q := ⟨(j : S4000x128.Idx) 0, (j : S4000x128.Idx) 1, eq_ix2 _⟩
  show k0_pay3 (F := Ideal) (xb0 m c t) (xb1 m c t) (xb2 m c t) (xb3 m c t) (xb4 m c t) (ix2 p q)
    = T1 m c (((cfg0.win 5).blk t).view.emb (ix2 p q))
  rw [emb5]
  exact t1_at m c t p q

/-! ## The two arrays after the run -/

/-- After the run the second result array holds the attention weights of all edges. -/
theorem final6 (c : Dev nD) : (dats m 0 c).arrAt 6 cfg0.N = EB m c :=
  (dats m 0 c).arrAt_eq_of_cover 6 (EB m c) (fun t _ => flushed_eq6 m c t) cover6

/-- After the run the first result array holds the weighted rows of all edges. -/
theorem final5 (c : Dev nD) : (dats m 0 c).arrAt 5 cfg0.N = T1 m c :=
  (dats m 0 c).arrAt_eq_of_cover 5 (T1 m c) (fun t _ => flushed_eq5 m c t) cover5

end Cert.KernelIdeal.Val

end
-- ==== Proof.LibNaryThree.lean ====
/-
  A host operation over a literal family of three operands (a join of three arrays along one axis prints so): what
  its result buffer holds afterwards, with each operand's contents named at its own buffer, so that a proof can go on
  rewriting the three contents one by one.
-/
import Idealize.ShloMosaic.Lib.StableHlo.Run

noncomputable section

namespace Cert.LibNaryThree

open Idealize.ShloMosaic Idealize.ShloMosaic.StableHlo

variable {τ : Topo} {sig : RefSig} {Val : EltTy → Type}
variable {x a b y : Ref sig .tc}

/-- After an operation over the three operands `x`, `a`, `b`, the result buffer holds the operation's function at
    the family whose entries are the three buffers' contents, each at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated so that a simplifier pass finds it at any result buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNaryThree

end
-- ==== Proof.KITail.lean ====
/-
  The host lines around the kernel, read as values.

  Before the kernel: the edge-feature matrix it reads is the three gathered embeddings joined end to end, the weight
  it reads is the transposed weight, and the two index columns the later scatters use are the source and the relation
  columns of the triplet table. After the kernel: the two results are the per-source and per-relation sums of the
  kernel's two output arrays, divided and passed through elu, exactly the stages of the specification applied to those
  two arrays. Stated for any float family.
-/
import proofs.«175567_j49082886259211_1_alg».proof.Proof.KIFrame
import proofs.«175567_j49082886259211_1_alg».proof.Proof.Spec
import proofs.«175567_j49082886259211_1_alg».proof.Proof.LibNaryThree
import Idealize.ShloMosaic.Lib.StableHlo.Run

set_option maxRecDepth 16384

noncomputable section

namespace Cert.KernelIdeal.Ends

open Cert.KernelIdeal Cert.KernelIdeal.Gen Cert.KernelIdeal.Fr
open Idealize.ShloMosaic Idealize.ShloMosaic.TcCoe Idealize.ShloMosaic.StableHlo
open Idealize.SL.Sem
open Idealize.ShloMosaic.Pipeline (Dat)

/-- Reads a buffer after a literal list of host operations, one of which joins three operands. -/
macro "read_ops" : tactic =>
  `(tactic| (simp only [after_cons, after_nil]
             repeat (first
               | rw [nullary_result] | rw [unary_result] | rw [binary_result] | rw [ternary_result] | rw [quaternary_result]
               | rw [reshape_result] | rw [Cert.LibNaryThree.nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

variable {F : FTy → Type} [FloatOps F]
variable (m : (ℓ : Loc nD τ sig) → Buf (Elt F) ℓ)

/-! ## Before the kernel -/

set_option maxHeartbeats 4000000 in
/-- The feature matrix the kernel reads. -/
theorem feat_eq (c : Dev nD) :
    V m c main_v27 = Cert.Spec.feat (m ((c : Thread nD τ).loc main_arg0)) (m ((c : Thread nD τ).loc main_arg1)) (m ((c : Thread nD τ).loc main_arg2)) := by
  show StableHlo.after (List.flatten [hostOps0]) (fun b => m (c, b)) (Proc.devRef .tc main_v27) = _
  simp only [hostOps0, List.flatten_cons, List.flatten_nil, List.append_nil]
  read_ops
  rfl

set_option maxHeartbeats 4000000 in
/-- The weight the kernel reads. -/
theorem wT_eq (c : Dev nD) : V m c main_v28 = Cert.Spec.wT (m ((c : Thread nD τ).loc main_arg3)) := by
  show StableHlo.after (List.flatten [hostOps0]) (fun b => m (c, b)) (Proc.devRef .tc main_v28) = _
  simp only [hostOps0, List.flatten_cons, List.flatten_nil, List.append_nil]
  read_ops
  rfl

set_option maxHeartbeats 4000000 in
/-- The source column. -/
theorem src_eq (c : Dev nD) : V m c main_v1 = Cert.Spec.col0 (m ((c : Thread nD τ).loc main_arg0)) := by
  show StableHlo.after (List.flatten [hostOps0]) (fun b => m (c, b)) (Proc.devRef .tc main_v1) = _
  simp only [hostOps0, List.flatten_cons, List.flatten_nil, List.append_nil]
  read_ops
  rfl

set_option maxHeartbeats 4000000 in
/-- The relation column. -/
theorem rel_eq (c : Dev nD) : V m c main_v5 = Cert.Spec.col2 (m ((c : Thread nD τ).loc main_arg0)) := by
  show StableHlo.after (List.flatten [hostOps0]) (fun b => m (c, b)) (Proc.devRef .tc main_v5) = _
  simp only [hostOps0, List.flatten_cons, List.flatten_nil, List.append_nil]
  read_ops
  rfl

/-! ## After the kernel -/

/-- What the later lines start from: the kernel's arrays at what the run leaves there, everything else as before. -/
abbrev exitVal (c : Dev nD) : Valuation τ sig (Elt F) :=
  Pipeline.withArrays spec0 c (V0 m c) fun w => (dats m 0 c).arrAt w cfg0.N

theorem exit_t1 (c : Dev nD) : exitVal m c (Proc.devRef .tc main_v29_0) = (dats m 0 c).arrAt 5 cfg0.N :=
  Pipeline.withArrays_arr spec0 launch0.win.arr_inj c _ _ 5

theorem exit_eb (c : Dev nD) : exitVal m c (Proc.devRef .tc main_v29_1) = (dats m 0 c).arrAt 6 cfg0.N :=
  Pipeline.withArrays_arr spec0 launch0.win.arr_inj c _ _ 6

theorem exit_src (c : Dev nD) : exitVal m c (Proc.devRef .tc main_v1) = V m c main_v1 :=
  Pipeline.withArrays_of_ne _ c (V0 m c) _ main_v1 (by exact (by decide : ∀ w, Pipeline.arrRef spec0 w ≠ main_v1))

theorem exit_rel (c : Dev nD) : exitVal m c (Proc.devRef .tc main_v5) = V m c main_v5 :=
  Pipeline.withArrays_of_ne _ c (V0 m c) _ main_v5 (by exact (by decide : ∀ w, Pipeline.arrRef spec0 w ≠ main_v5))

set_option maxHeartbeats 8000000 in
/-- The first result, from the kernel's two arrays. -/
theorem ent_eq (c : Dev nD) :
    Pipeline.afterTail₀ cfgs (dats m) 0 (V0 m) tailOps c main_v52
      = Cert.Spec.eluEnt (Cert.Spec.hEnt (V m c main_v1) ((dats m 0 c).arrAt 6 cfg0.N) ((dats m 0 c).arrAt 5 cfg0.N)) := by
  rw [← exit_src, ← exit_eb, ← exit_t1]
  unfold Pipeline.afterTail₀
  show StableHlo.after (List.flatten tailOps) (exitVal m c) (Proc.devRef .tc main_v52) = _
  generalize exitVal m c = W
  simp only [tailOps, hostOps1, hostOps1_1, hostOps1_2, hostOps1_3, hostOps1_4, List.flatten_cons, List.flatten_nil, List.append_nil, List.cons_append, List.nil_append]
  read_ops
  rfl

set_option maxHeartbeats 8000000 in
/-- The second result, from the kernel's first array. -/
theorem relrows_eq (c : Dev nD) :
    Pipeline.afterTail₀ cfgs (dats m) 0 (V0 m) tailOps c main_v53
      = Cert.Spec.eluRel (Cert.Spec.hRel (V m c main_v5) ((dats m 0 c).arrAt 5 cfg0.N)) := by
  rw [← exit_rel, ← exit_t1]
  unfold Pipeline.afterTail₀
  show StableHlo.after (List.flatten tailOps) (exitVal m c) (Proc.devRef .tc main_v53) = _
  generalize exitVal m c = W
  simp only [tailOps, hostOps1, hostOps1_1, hostOps1_2, hostOps1_3, hostOps1_4, List.flatten_cons, List.flatten_nil, List.append_nil, List.cons_append, List.nil_append]
  read_ops
  rfl

end Cert.KernelIdeal.Ends

end
-- ==== Proof.KIOut.lean ====
/-
  The idealized kernel program's two results as the specification's functions of the seven inputs.

  The run leaves each result at the later host lines' value of the kernel's two output arrays. Once those arrays are
  known to be the weight column and the weighted rows of all edges (the specification's stages over the feature matrix
  and the weights as the kernel meets them), the host lines before the kernel identify that feature matrix, the
  transposed weight and the two index columns with the specification's, and the results follow.
-/
import proofs.«175567_j49082886259211_1_alg».proof.Proof.KIFrame
import proofs.«175567_j49082886259211_1_alg».proof.Proof.KITail
import Idealize.ShloMosaic.PureOps.Ideal

noncomputable section

namespace Cert.KernelIdeal.Out

open Cert.KernelIdeal Cert.KernelIdeal.Gen Cert.KernelIdeal.Fr Cert.KernelIdeal.Ends
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The weight column of all edges, over the arrays as the kernel meets them. -/
abbrev ebK (c : Dev nD) : (⟨S400000x1, .f32⟩ : BufTy).Contents (Elt Ideal) :=
  Cert.Spec.ebCol (Cert.Spec.zCol (Cert.Spec.cMat (V m c main_v27) (V m c main_v28) (V m c main_arg4)) (V m c main_arg5) (V m c main_arg6))

/-- The weighted rows of all edges, over the arrays as the kernel meets them. -/
abbrev t1K (c : Dev nD) : (⟨S400000x128, .f32⟩ : BufTy).Contents (Elt Ideal) :=
  Cert.Spec.t1Mat (ebK m c) (Cert.Spec.cMat (V m c main_v27) (V m c main_v28) (V m c main_arg4))

theorem ebK_eq (c : Dev nD) : ebK m c = Cert.Spec.ebOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold ebK Cert.Spec.ebOf
  rw [feat_eq, wT_eq, V_main_arg4, V_main_arg5, V_main_arg6]

theorem t1K_eq (c : Dev nD) : t1K m c = Cert.Spec.t1Of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold t1K Cert.Spec.t1Of
  rw [ebK_eq, feat_eq, wT_eq, V_main_arg4]

/-- Every execution ends with the two results at the specification's values and the seven arguments untouched, given
    what the kernel's two output arrays hold at the end. -/
theorem run_values (h6 : ∀ c, (dats m 0 c).arrAt 6 cfg0.N = ebK m c) (h5 : ∀ c, (dats m 0 c).arrAt 5 cfg0.N = t1K m c) :
    θ_run defs (onTc (τ := τ) (main (F := Ideal))) ⟨m, fun _ => 0, ρ⟩ (fun r => ∀ c : Dev nD,
      r.2.mem ((c.tc : Thread nD τ).loc main_v52) = Cert.Spec.outEnt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v53) = Cert.Spec.outRel (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v52 (Pipeline.mem_restRefs_of main_v52 (by decide) (by decide))).trans (by
        rw [ent_eq, h6, h5, src_eq, ebK_eq, t1K_eq]; rfl),
      ((h c).2 main_v53 (Pipeline.mem_restRefs_of main_v53 (by decide) (by decide))).trans (by
        rw [relrows_eq, h5, rel_eq, t1K_eq]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩)
    (run_main m ρ)

end Cert.KernelIdeal.Out

end
-- ==== Proof.RefRun.lean ====
/-
  The reference program's run, read back. @main is a straight line of host operations (the module-local functions'
  bodies unfolded at their calls, over each call's buffer record): `ops` lists them in order, in five consecutive
  pieces; `main_eq` says @main is that line; `run_all` that from any memory with zero counters every weakly fair
  execution terminates with each buffer at the fold of the operations over the launch contents.
-/
import proofs.«175567_j49082886259211_1_alg».proof.Proof.Gen.ReferenceIdeal
import Idealize.ShloMosaic.Lib.StableHlo.Run
import Idealize.ShloMosaic.Lib.Pipeline.Frame
import proofs.«175567_j49082886259211_1_alg».proof.Proof.Spec

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The three index columns of the triples, each wrapped into its table's range, and the three row gathers (33 operations). -/
abbrev ops0 : List (HloOp τ sig (Elt F)) :=
  [ StableHlo.unary main_arg0 main_v0 ((extractStridedSlice S400000x1 ![0, 0] · slices_S400000x3_S400000x1_0_0) : (⟨S400000x3, .i32⟩ : BufTy).Contents (Elt F) → (⟨S400000x1, .i32⟩ : BufTy).Contents (Elt F)),
    StableHlo.reshape main_v0 main_v1 rfl shapeCasts_S400000x1_S400000,
    StableHlo.unary main_arg0 main_v2 ((extractStridedSlice S400000x1 ![0, 1] · slices_S400000x3_S400000x1_0_1) : (⟨S400000x3, .i32⟩ : BufTy).Contents (Elt F) → (⟨S400000x1, .i32⟩ : BufTy).Contents (Elt F)),
    StableHlo.reshape main_v2 main_v3 rfl shapeCasts_S400000x1_S400000,
    StableHlo.unary main_arg0 main_v4 ((extractStridedSlice S400000x1 ![0, 2] · slices_S400000x3_S400000x1_0_2) : (⟨S400000x3, .i32⟩ : BufTy).Contents (Elt F) → (⟨S400000x1, .i32⟩ : BufTy).Contents (Elt F)),
    StableHlo.reshape main_v4 main_v5 rfl shapeCasts_S400000x1_S400000,
    StableHlo.nullary main_c (constantI S_ 32 0#32),
    StableHlo.unary main_c main_v6 (broadcastInDim S400000 ![] bcast_S_S400000 : (⟨S_, .i32⟩ : BufTy).Contents (Elt F) → (⟨S400000, .i32⟩ : BufTy).Contents (Elt F)),
    StableHlo.binary main_v1 main_v6 main_v7 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v8 (broadcastInDim S400000 ![] bcast_S_S400000 : (⟨S_, .i32⟩ : BufTy).Contents (Elt F) → (⟨S400000, .i32⟩ : BufTy).Contents (Elt F)),
    StableHlo.binary main_v1 main_v8 main_v9 (addi : (⟨S400000, .i32⟩ : BufTy).Contents (Elt F) → (⟨S400000, .i32⟩ : BufTy).Contents (Elt F) → (⟨S400000, .i32⟩ : BufTy).Contents (Elt F)),
    StableHlo.ternary main_v7 main_v9 main_v1 main_v10 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v10 main_v11 (broadcastInDim S400000x1 ![0] bcast_S400000_S400000x1_0 : (⟨S400000, .i32⟩ : BufTy).Contents (Elt F) → (⟨S400000x1, .i32⟩ : BufTy).Contents (Elt F)),
    StableHlo.binary main_arg1 main_v11 main_v12 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_c_1 (constantI S_ 32 0#32),
    StableHlo.unary main_c_1 main_v13 (broadcastInDim S400000 ![] bcast_S_S400000 : (⟨S_, .i32⟩ : BufTy).Contents (Elt F) → (⟨S400000, .i32⟩ : BufTy).Contents (Elt F)),
    StableHlo.binary main_v5 main_v13 main_v14 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 237#32),
    StableHlo.unary main_c_2 main_v15 (broadcastInDim S400000 ![] bcast_S_S400000 : (⟨S_, .i32⟩ : BufTy).Contents (Elt F) → (⟨S400000, .i32⟩ : BufTy).Contents (Elt F)),
    StableHlo.binary main_v5 main_v15 main_v16 (addi : (⟨S400000, .i32⟩ : BufTy).Contents (Elt F) → (⟨S400000, .i32⟩ : BufTy).Contents (Elt F) → (⟨S400000, .i32⟩ : BufTy).Contents (Elt F)),
    StableHlo.ternary main_v14 main_v16 main_v5 main_v17 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v17 main_v18 (broadcastInDim S400000x1 ![0] bcast_S400000_S400000x1_0 : (⟨S400000, .i32⟩ : BufTy).Contents (Elt F) → (⟨S400000x1, .i32⟩ : BufTy).Contents (Elt F)),
    StableHlo.binary main_arg2 main_v18 main_v19 ((fun x i => Host.gather gather_S237x128_S400000x1_S400000x128_1_0_n_n_0_1_1128 x i) : (⟨S237x128, .f32⟩ : BufTy).Contents (Elt F) → (⟨S400000x1, .i32⟩ : BufTy).Contents (Elt F) → (⟨S400000x128, .f32⟩ : BufTy).Contents (Elt F)),
    StableHlo.nullary main_c_3 (constantI S_ 32 0#32),
    StableHlo.unary main_c_3 main_v20 (broadcastInDim S400000 ![] bcast_S_S400000 : (⟨S_, .i32⟩ : BufTy).Contents (Elt F) → (⟨S400000, .i32⟩ : BufTy).Contents (Elt F)),
    StableHlo.binary main_v3 main_v20 main_v21 (cmpi .slt : (⟨S400000, .i32⟩ : BufTy).Contents (Elt F) → (⟨S400000, .i32⟩ : BufTy).Contents (Elt F) → (⟨S400000, .i1⟩ : BufTy).Contents (Elt F)),
    StableHlo.nullary main_c_4 (constantI S_ 32 100000#32),
    StableHlo.unary main_c_4 main_v22 (broadcastInDim S400000 ![] bcast_S_S400000 : (⟨S_, .i32⟩ : BufTy).Contents (Elt F) → (⟨S400000, .i32⟩ : BufTy).Contents (Elt F)),
    StableHlo.binary main_v3 main_v22 main_v23 (addi : (⟨S400000, .i32⟩ : BufTy).Contents (Elt F) → (⟨S400000, .i32⟩ : BufTy).Contents (Elt F) → (⟨S400000, .i32⟩ : BufTy).Contents (Elt F)),
    StableHlo.ternary main_v21 main_v23 main_v3 main_v24 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v24 main_v25 (broadcastInDim S400000x1 ![0] bcast_S400000_S400000x1_0 : (⟨S400000, .i32⟩ : BufTy).Contents (Elt F) → (⟨S400000x1, .i32⟩ : BufTy).Contents (Elt F)),
    StableHlo.binary main_arg1 main_v25 main_v26 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)) ]

set_option maxHeartbeats 4000000 in
/-- The join of the three gathered blocks, the linear map and its bias, the score column and its bias, the leaky rectifier (the callee's seven operations inlined over its record), the exponential, and the two scatter-sums over the first index column with their zero seeds (33 operations). -/
abbrev ops1 : List (HloOp τ sig (Elt F)) :=
  [ StableHlo.nary ![main_v12, main_v19, main_v26] main_v27 (fun u => concatenate S400000x384 1 [⟨S400000x128, u 0⟩, ⟨S400000x128, u 1⟩, ⟨S400000x128, u 2⟩] concatenates_S400000x128_S400000x128_S400000x128_S400000x384_d1),
    StableHlo.unary main_arg3 main_v28 ((transpose S384x128 [1, 0] · transposes_S128x384_S384x128_1_0) : (⟨S128x384, .f32⟩ : BufTy).Contents (Elt F) → (⟨S384x128, .f32⟩ : BufTy).Contents (Elt F)),
    StableHlo.binary main_v27 main_v28 main_v29 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    StableHlo.unary main_arg4 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S400000x128 ![0, 1] bcast_S1x128_S400000x128_0_1 : (⟨S1x128, .f32⟩ : BufTy).Contents (Elt F) → (⟨S400000x128, .f32⟩ : BufTy).Contents (Elt F)),
    StableHlo.binary main_v29 main_v31 main_v32 (addf : (⟨S400000x128, .f32⟩ : BufTy).Contents (Elt F) → (⟨S400000x128, .f32⟩ : BufTy).Contents (Elt F) → (⟨S400000x128, .f32⟩ : BufTy).Contents (Elt F)),
    StableHlo.unary main_arg5 main_v33 ((transpose S128x1 [1, 0] · transposes_S1x128_S128x1_1_0) : (⟨S1x128, .f32⟩ : BufTy).Contents (Elt F) → (⟨S128x1, .f32⟩ : BufTy).Contents (Elt F)),
    StableHlo.binary main_v32 main_v33 main_v34 ((fun l r => Host.dotGeneral dot_S400000x128_S128x1_S400000x1_1_0_0_1_n_n none l r) : (⟨S400000x128, .f32⟩ : BufTy).Contents (Elt F) → (⟨S128x1, .f32⟩ : BufTy).Contents (Elt F) → (⟨S400000x1, .f32⟩ : BufTy).Contents (Elt F)),
    StableHlo.unary main_arg6 main_v35 (broadcastInDim S1x1 ![1] bcast_S1_S1x1_1 : (⟨S1, .f32⟩ : BufTy).Contents (Elt F) → (⟨S1x1, .f32⟩ : BufTy).Contents (Elt F)),
    StableHlo.unary main_v35 main_v36 (broadcastInDim S400000x1 ![0, 1] bcast_S1x1_S400000x1_0_1 : (⟨S1x1, .f32⟩ : BufTy).Contents (Elt F) → (⟨S400000x1, .f32⟩ : BufTy).Contents (Elt F)),
    StableHlo.binary main_v34 main_v36 main_v37 (addf : (⟨S400000x1, .f32⟩ : BufTy).Contents (Elt F) → (⟨S400000x1, .f32⟩ : BufTy).Contents (Elt F) → (⟨S400000x1, .f32⟩ : BufTy).Contents (Elt F)),
    StableHlo.TRef.nullary main_call0.cst (constant S_ .f32 0x00000000#32),
    StableHlo.TRef.unary main_call0.cst main_call0.v0 (broadcastInDim S400000x1 ![] bcast_S_S400000x1),
    StableHlo.TRef.binary (.of main_v37 : StableHlo.TRef sig ⟨S400000x1, .f32⟩) main_call0.v0 main_call0.v1 (cmpf .oge),
    StableHlo.TRef.nullary main_call0.cst_0 (constant S_ .f32 0x3C23D70A#32),
    StableHlo.TRef.unary main_call0.cst_0 main_call0.v2 (broadcastInDim S400000x1 ![] bcast_S_S400000x1),
    StableHlo.TRef.binary main_call0.v2 (.of main_v37 : StableHlo.TRef sig ⟨S400000x1, .f32⟩) main_call0.v3 mulf,
    StableHlo.TRef.ternary main_call0.v1 (.of main_v37 : StableHlo.TRef sig ⟨S400000x1, .f32⟩) main_call0.v3 main_call0.call0.v0 select,
    StableHlo.unary main_v38 main_v39 (Host.exp : (⟨S400000x1, .f32⟩ : BufTy).Contents (Elt F) → (⟨S400000x1, .f32⟩ : BufTy).Contents (Elt F)),
    StableHlo.nullary main_cst (constant S_ .f32 0x00000000#32),
    StableHlo.unary main_cst main_v40 (broadcastInDim S100000x1 ![] bcast_S_S100000x1 : (⟨S_, .f32⟩ : BufTy).Contents (Elt F) → (⟨S100000x1, .f32⟩ : BufTy).Contents (Elt F)),
    StableHlo.unary main_v1 main_v41 (broadcastInDim S400000x1 ![0] bcast_S400000_S400000x1_0 : (⟨S400000, .i32⟩ : BufTy).Contents (Elt F) → (⟨S400000x1, .i32⟩ : BufTy).Contents (Elt F)),
    StableHlo.ternary main_v40 main_v41 main_v39 main_v42 ((fun x i u => Host.scatterAdd scatter_S100000x1_S400000x1_S400000x1_1_0_0_1 x i u) : (⟨S100000x1, .f32⟩ : BufTy).Contents (Elt F) → (⟨S400000x1, .i32⟩ : BufTy).Contents (Elt F) → (⟨S400000x1, .f32⟩ : BufTy).Contents (Elt F) → (⟨S100000x1, .f32⟩ : BufTy).Contents (Elt F)),
    StableHlo.unary main_v39 main_v43 (broadcastInDim S400000x128 ![0, 1] bcast_S400000x1_S400000x128_0_1 : (⟨S400000x1, .f32⟩ : BufTy).Contents (Elt F) → (⟨S400000x128, .f32⟩ : BufTy).Contents (Elt F)),
    StableHlo.binary main_v43 main_v32 main_v44 (mulf : (⟨S400000x128, .f32⟩ : BufTy).Contents (Elt F) → (⟨S400000x128, .f32⟩ : BufTy).Contents (Elt F) → (⟨S400000x128, .f32⟩ : BufTy).Contents (Elt F)),
    StableHlo.nullary main_cst_5 (constant S_ .f32 0x00000000#32),
    StableHlo.unary main_cst_5 main_v45 (broadcastInDim S100000x128 ![] bcast_S_S100000x128 : (⟨S_, .f32⟩ : BufTy).Contents (Elt F) → (⟨S100000x128, .f32⟩ : BufTy).Contents (Elt F)),
    StableHlo.unary main_v1 main_v46 (broadcastInDim S400000x1 ![0] bcast_S400000_S400000x1_0 : (⟨S400000, .i32⟩ : BufTy).Contents (Elt F) → (⟨S400000x1, .i32⟩ : BufTy).Contents (Elt F)),
    StableHlo.ternary main_v45 main_v46 main_v44 main_v47 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_6 (constant S_ .f32 0x00000000#32),
    StableHlo.unary main_cst_6 main_v48 (broadcastInDim S100000x1 ![] bcast_S_S100000x1 : (⟨S_, .f32⟩ : BufTy).Contents (Elt F) → (⟨S100000x1, .f32⟩ : BufTy).Contents (Elt F)),
    StableHlo.binary main_v42 main_v48 main_v49 (cmpf .oeq : (⟨S100000x1, .f32⟩ : BufTy).Contents (Elt F) → (⟨S100000x1, .f32⟩ : BufTy).Contents (Elt F) → (⟨S100000x1, .i1⟩ : BufTy).Contents (Elt F)),
    StableHlo.nullary main_cst_7 (constant S_ .f32 0x2B8CBCCC#32) ]

set_option maxHeartbeats 4000000 in
/-- The guarded denominator (the callee's three operations inlined), the quotient; the scatter-sum over the third index column, the counts, their floor at one, the quotient (20 operations). -/
abbrev ops2 : List (HloOp τ sig (Elt F)) :=
  [ StableHlo.TRef.unary (.of main_cst_7 : StableHlo.TRef sig ⟨S_, .f32⟩) main_call1.v0 id,
    StableHlo.TRef.unary main_call1.v0 main_call1.v1 (broadcastInDim S100000x1 ![] bcast_S_S100000x1),
    StableHlo.TRef.ternary (.of main_v49 : StableHlo.TRef sig ⟨S100000x1, .i1⟩) main_call1.v1 (.of main_v42 : StableHlo.TRef sig ⟨S100000x1, .f32⟩) main_call1.v2 select,
    StableHlo.unary main_v50 main_v51 (broadcastInDim S100000x128 ![0, 1] bcast_S100000x1_S100000x128_0_1 : (⟨S100000x1, .f32⟩ : BufTy).Contents (Elt F) → (⟨S100000x128, .f32⟩ : BufTy).Contents (Elt F)),
    StableHlo.binary main_v47 main_v51 main_v52 (Host.divf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.unary main_cst_8 main_v53 (broadcastInDim S237x128 ![] bcast_S_S237x128 : (⟨S_, .f32⟩ : BufTy).Contents (Elt F) → (⟨S237x128, .f32⟩ : BufTy).Contents (Elt F)),
    StableHlo.unary main_v5 main_v54 (broadcastInDim S400000x1 ![0] bcast_S400000_S400000x1_0 : (⟨S400000, .i32⟩ : BufTy).Contents (Elt F) → (⟨S400000x1, .i32⟩ : BufTy).Contents (Elt F)),
    StableHlo.ternary main_v53 main_v54 main_v44 main_v55 ((fun x i u => Host.scatterAdd scatter_S237x128_S400000x1_S400000x128_1_0_0_1 x i u) : (⟨S237x128, .f32⟩ : BufTy).Contents (Elt F) → (⟨S400000x1, .i32⟩ : BufTy).Contents (Elt F) → (⟨S400000x128, .f32⟩ : BufTy).Contents (Elt F) → (⟨S237x128, .f32⟩ : BufTy).Contents (Elt F)),
    StableHlo.nullary main_cst_9 (constant S_ .f32 0x3F800000#32),
    StableHlo.unary main_cst_9 main_v56 (broadcastInDim S400000x1 ![] bcast_S_S400000x1 : (⟨S_, .f32⟩ : BufTy).Contents (Elt F) → (⟨S400000x1, .f32⟩ : BufTy).Contents (Elt F)),
    StableHlo.nullary main_cst_10 (constant S_ .f32 0x00000000#32),
    StableHlo.unary main_cst_10 main_v57 (broadcastInDim S237x1 ![] bcast_S_S237x1 : (⟨S_, .f32⟩ : BufTy).Contents (Elt F) → (⟨S237x1, .f32⟩ : BufTy).Contents (Elt F)),
    StableHlo.unary main_v5 main_v58 (broadcastInDim S400000x1 ![0] bcast_S400000_S400000x1_0 : (⟨S400000, .i32⟩ : BufTy).Contents (Elt F) → (⟨S400000x1, .i32⟩ : BufTy).Contents (Elt F)),
    StableHlo.ternary main_v57 main_v58 main_v56 main_v59 ((fun x i u => Host.scatterAdd scatter_S237x1_S400000x1_S400000x1_1_0_0_1 x i u) : (⟨S237x1, .f32⟩ : BufTy).Contents (Elt F) → (⟨S400000x1, .i32⟩ : BufTy).Contents (Elt F) → (⟨S400000x1, .f32⟩ : BufTy).Contents (Elt F) → (⟨S237x1, .f32⟩ : BufTy).Contents (Elt F)),
    StableHlo.nullary main_cst_11 (constant S_ .f32 0x3F800000#32),
    StableHlo.unary main_cst_11 main_v60 (broadcastInDim S237x1 ![] bcast_S_S237x1 : (⟨S_, .f32⟩ : BufTy).Contents (Elt F) → (⟨S237x1, .f32⟩ : BufTy).Contents (Elt F)),
    StableHlo.binary main_v59 main_v60 main_v61 (maximumf : (⟨S237x1, .f32⟩ : BufTy).Contents (Elt F) → (⟨S237x1, .f32⟩ : BufTy).Contents (Elt F) → (⟨S237x1, .f32⟩ : BufTy).Contents (Elt F)),
    StableHlo.unary main_v61 main_v62 (broadcastInDim S237x128 ![0, 1] bcast_S237x1_S237x128_0_1 : (⟨S237x1, .f32⟩ : BufTy).Contents (Elt F) → (⟨S237x128, .f32⟩ : BufTy).Contents (Elt F)),
    StableHlo.binary main_v55 main_v62 main_v63 (Host.divf : (⟨S237x128, .f32⟩ : BufTy).Contents (Elt F) → (⟨S237x128, .f32⟩ : BufTy).Contents (Elt F) → (⟨S237x128, .f32⟩ : BufTy).Contents (Elt F)) ]

set_option maxHeartbeats 4000000 in
/-- The first result's exponential-linear unit, the callee's fifteen operations inlined over its record. -/
abbrev ops3 : List (HloOp τ sig (Elt F)) :=
  [ StableHlo.TRef.nullary main_call2.cst (constant S_ .f32 0x00000000#32),
    StableHlo.TRef.unary main_call2.cst main_call2.v0 (broadcastInDim S100000x128 ![] bcast_S_S100000x128),
    StableHlo.TRef.binary (.of main_v52 : StableHlo.TRef sig ⟨S100000x128, .f32⟩) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (.of main_v52 : StableHlo.TRef sig ⟨S100000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x128 ![] bcast_S_S100000x128),
    StableHlo.TRef.ternary main_call2.v3 main_call2.call0.v1 (.of main_v52 : StableHlo.TRef sig ⟨S100000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary main_call2.v1 (.of main_v52 : StableHlo.TRef sig ⟨S100000x128, .f32⟩) main_call2.v7 main_call2.call1.v0 select ]

set_option maxHeartbeats 4000000 in
/-- The second result's exponential-linear unit, the callee's fifteen operations inlined over its record. -/
abbrev ops4 : List (HloOp τ sig (Elt F)) :=
  [ StableHlo.TRef.nullary main_call3.cst (constant S_ .f32 0x00000000#32),
    StableHlo.TRef.unary main_call3.cst main_call3.v0 (broadcastInDim S237x128 ![] bcast_S_S237x128),
    StableHlo.TRef.binary (.of main_v63 : StableHlo.TRef sig ⟨S237x128, .f32⟩) main_call3.v0 main_call3.v1 (cmpf .ogt),
    StableHlo.TRef.nullary main_call3.cst_0 (constant S_ .f32 0x00000000#32),
    StableHlo.TRef.unary main_call3.cst_0 main_call3.v2 (broadcastInDim S237x128 ![] bcast_S_S237x128),
    StableHlo.TRef.binary (.of main_v63 : StableHlo.TRef sig ⟨S237x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S237x128 ![] bcast_S_S237x128),
    StableHlo.TRef.ternary main_call3.v3 main_call3.call0.v1 (.of main_v63 : StableHlo.TRef sig ⟨S237x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S237x128 ![] bcast_S_S237x128),
    StableHlo.TRef.binary main_call3.v6 main_call3.v5 main_call3.v7 mulf,
    StableHlo.TRef.ternary main_call3.v1 (.of main_v63 : StableHlo.TRef sig ⟨S237x128, .f32⟩) main_call3.v7 main_call3.call1.v0 select ]

/-- @main's 116 operations, in order. -/
abbrev ops : List (HloOp τ sig (Elt F)) := ops0 ++ (ops1 ++ (ops2 ++ (ops3 ++ ops4)))

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨nary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨unary_bufs_sub .., unary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl⟩

/-- The first window is the first two pieces run in a row. -/
theorem main_part0_eq (c : Dev nD) : main_part0 (F := F) c = (seq (ops0 ++ ops1) : Prog (TpuEff nD τ sig (Elt F) (Pipeline.Sig Λ₀ (Fin 0) fun p => (pcfgs (F := F) p).Adm) .tc) PUnit) := by
  chain_rfl

/-- The second window is the last three pieces run in a row. -/
theorem main_part1_eq (c : Dev nD) : main_part1 (F := F) c = (seq (ops2 ++ (ops3 ++ ops4)) : Prog (TpuEff nD τ sig (Elt F) (Pipeline.Sig Λ₀ (Fin 0) fun p => (pcfgs (F := F) p).Adm) .tc) PUnit) := by
  chain_rfl

/-- @main is that straight line: its two windows in order, the functions' bodies unfolded at their calls. -/
theorem main_eq (c : Dev nD) : main (F := F) c = seq ops := by
  show (main_part0 (F := F) c >>= fun _ => main_part1 (F := F) c) = _
  rw [main_part0_eq, main_part1_eq, ← seq_append, List.append_assoc]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, ops4_sub⟩⟩⟩⟩

/-- Every operation of the line determines its results. -/
theorem ops_fresh : ∀ op ∈ (ops : List (HloOp τ sig (Elt F))), op.fresh = ∅ :=
  List.forall_iff_forall_mem.1
    (List.forall_append.2 ⟨ops0_fresh, List.forall_append.2 ⟨ops1_fresh, List.forall_append.2 ⟨ops2_fresh, List.forall_append.2 ⟨ops3_fresh, ops4_fresh⟩⟩⟩⟩)

/-- On every device, for any float values, from any memory with zero counters: every weakly fair execution of @main
    terminates with each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What the line leaves in each buffer

The fold is read piece by piece, over any contents `W` the piece starts from: what each value the later pieces or the
results read holds after the piece, as the named stage of the arguments' and the earlier values' contents, and that the
piece leaves the arguments and the values it passes over as they were. -/

local notation "⟪" r "⟫" => (Proc.devRef (τ := τ) Proc.tc r)

theorem c0_v1 (W : Valuation τ sig (Elt F)) : after ops0 W ⟪main_v1⟫ = Spec.col0 (W ⟪main_arg0⟫) := by after_results_simp <;> (try simp only [TRef.ofBuf, TRef.toBuf, cast_eq]) <;> rfl
theorem c0_v5 (W : Valuation τ sig (Elt F)) : after ops0 W ⟪main_v5⟫ = Spec.col2 (W ⟪main_arg0⟫) := by after_results_simp <;> (try simp only [TRef.ofBuf, TRef.toBuf, cast_eq]) <;> rfl
theorem c0_v12 (W : Valuation τ sig (Elt F)) : after ops0 W ⟪main_v12⟫ = Host.gather gather_S100000x128_S400000x1_S400000x128_1_0_n_n_0_1_1128 (W ⟪main_arg1⟫) (Spec.wrapIdx 100000#32 (Spec.col0 (W ⟪main_arg0⟫))) := by after_results_simp <;> (try simp only [TRef.ofBuf, TRef.toBuf, cast_eq]) <;> rfl
theorem c0_v19 (W : Valuation τ sig (Elt F)) : after ops0 W ⟪main_v19⟫ = Host.gather gather_S237x128_S400000x1_S400000x128_1_0_n_n_0_1_1128 (W ⟪main_arg2⟫) (Spec.wrapIdx 237#32 (Spec.col2 (W ⟪main_arg0⟫))) := by after_results_simp <;> (try simp only [TRef.ofBuf, TRef.toBuf, cast_eq]) <;> rfl
theorem c0_v26 (W : Valuation τ sig (Elt F)) : after ops0 W ⟪main_v26⟫ = Host.gather gather_S100000x128_S400000x1_S400000x128_1_0_n_n_0_1_1128 (W ⟪main_arg1⟫) (Spec.wrapIdx 100000#32 (Spec.col1 (W ⟪main_arg0⟫))) := by after_results_simp <;> (try simp only [TRef.ofBuf, TRef.toBuf, cast_eq]) <;> rfl
theorem c0_arg0 (W : Valuation τ sig (Elt F)) : after ops0 W ⟪main_arg0⟫ = W ⟪main_arg0⟫ := by after_results_simp
theorem c0_arg1 (W : Valuation τ sig (Elt F)) : after ops0 W ⟪main_arg1⟫ = W ⟪main_arg1⟫ := by after_results_simp
theorem c0_arg2 (W : Valuation τ sig (Elt F)) : after ops0 W ⟪main_arg2⟫ = W ⟪main_arg2⟫ := by after_results_simp
theorem c0_arg3 (W : Valuation τ sig (Elt F)) : after ops0 W ⟪main_arg3⟫ = W ⟪main_arg3⟫ := by after_results_simp
theorem c0_arg4 (W : Valuation τ sig (Elt F)) : after ops0 W ⟪main_arg4⟫ = W ⟪main_arg4⟫ := by after_results_simp
theorem c0_arg5 (W : Valuation τ sig (Elt F)) : after ops0 W ⟪main_arg5⟫ = W ⟪main_arg5⟫ := by after_results_simp
theorem c0_arg6 (W : Valuation τ sig (Elt F)) : after ops0 W ⟪main_arg6⟫ = W ⟪main_arg6⟫ := by after_results_simp

theorem c1_v44 (W : Valuation τ sig (Elt F)) : after ops1 W ⟪main_v44⟫ = (Spec.t1Mat (Spec.ebCol (Spec.zCol (Spec.cMat (concatenate S400000x384 1 [⟨S400000x128, W ⟪main_v12⟫⟩, ⟨S400000x128, W ⟪main_v19⟫⟩, ⟨S400000x128, W ⟪main_v26⟫⟩] concatenates_S400000x128_S400000x128_S400000x128_S400000x384_d1) (Spec.wT (W ⟪main_arg3⟫)) (W ⟪main_arg4⟫)) (W ⟪main_arg5⟫) (W ⟪main_arg6⟫))) (Spec.cMat (concatenate S400000x384 1 [⟨S400000x128, W ⟪main_v12⟫⟩, ⟨S400000x128, W ⟪main_v19⟫⟩, ⟨S400000x128, W ⟪main_v26⟫⟩] concatenates_S400000x128_S400000x128_S400000x128_S400000x384_d1) (Spec.wT (W ⟪main_arg3⟫)) (W ⟪main_arg4⟫))) := by after_results_simp <;> (try simp only [TRef.ofBuf, TRef.toBuf, cast_eq]) <;> rfl
theorem c1_v42 (W : Valuation τ sig (Elt F)) : after ops1 W ⟪main_v42⟫ = Spec.ebSum (W ⟪main_v1⟫) (Spec.ebCol (Spec.zCol (Spec.cMat (concatenate S400000x384 1 [⟨S400000x128, W ⟪main_v12⟫⟩, ⟨S400000x128, W ⟪main_v19⟫⟩, ⟨S400000x128, W ⟪main_v26⟫⟩] concatenates_S400000x128_S400000x128_S400000x128_S400000x384_d1) (Spec.wT (W ⟪main_arg3⟫)) (W ⟪main_arg4⟫)) (W ⟪main_arg5⟫) (W ⟪main_arg6⟫))) := by after_results_simp <;> (try simp only [TRef.ofBuf, TRef.toBuf, cast_eq]) <;> rfl
theorem c1_v47 (W : Valuation τ sig (Elt F)) : after ops1 W ⟪main_v47⟫ = Spec.hSum (W ⟪main_v1⟫) (Spec.t1Mat (Spec.ebCol (Spec.zCol (Spec.cMat (concatenate S400000x384 1 [⟨S400000x128, W ⟪main_v12⟫⟩, ⟨S400000x128, W ⟪main_v19⟫⟩, ⟨S400000x128, W ⟪main_v26⟫⟩] concatenates_S400000x128_S400000x128_S400000x128_S400000x384_d1) (Spec.wT (W ⟪main_arg3⟫)) (W ⟪main_arg4⟫)) (W ⟪main_arg5⟫) (W ⟪main_arg6⟫))) (Spec.cMat (concatenate S400000x384 1 [⟨S400000x128, W ⟪main_v12⟫⟩, ⟨S400000x128, W ⟪main_v19⟫⟩, ⟨S400000x128, W ⟪main_v26⟫⟩] concatenates_S400000x128_S400000x128_S400000x128_S400000x384_d1) (Spec.wT (W ⟪main_arg3⟫)) (W ⟪main_arg4⟫))) := by after_results_simp <;> (try simp only [TRef.ofBuf, TRef.toBuf, cast_eq]) <;> rfl
theorem c1_v49 (W : Valuation τ sig (Elt F)) : after ops1 W ⟪main_v49⟫ = cmpf .oeq (Spec.ebSum (W ⟪main_v1⟫) (Spec.ebCol (Spec.zCol (Spec.cMat (concatenate S400000x384 1 [⟨S400000x128, W ⟪main_v12⟫⟩, ⟨S400000x128, W ⟪main_v19⟫⟩, ⟨S400000x128, W ⟪main_v26⟫⟩] concatenates_S400000x128_S400000x128_S400000x128_S400000x384_d1) (Spec.wT (W ⟪main_arg3⟫)) (W ⟪main_arg4⟫)) (W ⟪main_arg5⟫) (W ⟪main_arg6⟫)))) (broadcastInDim S100000x1 ![] bcast_S_S100000x1 (constant S_ .f32 0x00000000#32)) := by after_results_simp <;> (try simp only [TRef.ofBuf, TRef.toBuf, cast_eq]) <;> rfl
theorem c1_cst7 (W : Valuation τ sig (Elt F)) : after ops1 W ⟪main_cst_7⟫ = constant S_ .f32 0x2B8CBCCC#32 := by after_results_simp <;> (try simp only [TRef.ofBuf, TRef.toBuf, cast_eq]) <;> rfl
theorem c1_v5 (W : Valuation τ sig (Elt F)) : after ops1 W ⟪main_v5⟫ = W ⟪main_v5⟫ := by after_results_simp
theorem c1_arg0 (W : Valuation τ sig (Elt F)) : after ops1 W ⟪main_arg0⟫ = W ⟪main_arg0⟫ := by after_results_simp
theorem c1_arg1 (W : Valuation τ sig (Elt F)) : after ops1 W ⟪main_arg1⟫ = W ⟪main_arg1⟫ := by after_results_simp
theorem c1_arg2 (W : Valuation τ sig (Elt F)) : after ops1 W ⟪main_arg2⟫ = W ⟪main_arg2⟫ := by after_results_simp
theorem c1_arg3 (W : Valuation τ sig (Elt F)) : after ops1 W ⟪main_arg3⟫ = W ⟪main_arg3⟫ := by after_results_simp
theorem c1_arg4 (W : Valuation τ sig (Elt F)) : after ops1 W ⟪main_arg4⟫ = W ⟪main_arg4⟫ := by after_results_simp
theorem c1_arg5 (W : Valuation τ sig (Elt F)) : after ops1 W ⟪main_arg5⟫ = W ⟪main_arg5⟫ := by after_results_simp
theorem c1_arg6 (W : Valuation τ sig (Elt F)) : after ops1 W ⟪main_arg6⟫ = W ⟪main_arg6⟫ := by after_results_simp

theorem c2_v52 (W : Valuation τ sig (Elt F)) : after ops2 W ⟪main_v52⟫ = Host.divf (W ⟪main_v47⟫) (broadcastInDim S100000x128 ![0, 1] bcast_S100000x1_S100000x128_0_1
      (select (W ⟪main_v49⟫)
        (broadcastInDim S100000x1 ![] bcast_S_S100000x1 (id (W ⟪main_cst_7⟫))) (W ⟪main_v42⟫))) := by after_results_simp <;> (try simp only [TRef.ofBuf, TRef.toBuf, cast_eq]) <;> rfl
theorem c2_v63 (W : Valuation τ sig (Elt F)) : after ops2 W ⟪main_v63⟫ = Spec.hRel (W ⟪main_v5⟫) (W ⟪main_v44⟫) := by after_results_simp <;> (try simp only [TRef.ofBuf, TRef.toBuf, cast_eq]) <;> rfl
theorem c2_arg0 (W : Valuation τ sig (Elt F)) : after ops2 W ⟪main_arg0⟫ = W ⟪main_arg0⟫ := by after_results_simp
theorem c2_arg1 (W : Valuation τ sig (Elt F)) : after ops2 W ⟪main_arg1⟫ = W ⟪main_arg1⟫ := by after_results_simp
theorem c2_arg2 (W : Valuation τ sig (Elt F)) : after ops2 W ⟪main_arg2⟫ = W ⟪main_arg2⟫ := by after_results_simp
theorem c2_arg3 (W : Valuation τ sig (Elt F)) : after ops2 W ⟪main_arg3⟫ = W ⟪main_arg3⟫ := by after_results_simp
theorem c2_arg4 (W : Valuation τ sig (Elt F)) : after ops2 W ⟪main_arg4⟫ = W ⟪main_arg4⟫ := by after_results_simp
theorem c2_arg5 (W : Valuation τ sig (Elt F)) : after ops2 W ⟪main_arg5⟫ = W ⟪main_arg5⟫ := by after_results_simp
theorem c2_arg6 (W : Valuation τ sig (Elt F)) : after ops2 W ⟪main_arg6⟫ = W ⟪main_arg6⟫ := by after_results_simp

theorem c3_v64 (W : Valuation τ sig (Elt F)) : after ops3 W ⟪main_v64⟫ = Spec.eluEnt (W ⟪main_v52⟫) := by after_results_simp <;> (try simp only [TRef.ofBuf, TRef.toBuf, cast_eq]) <;> rfl
theorem c3_v63 (W : Valuation τ sig (Elt F)) : after ops3 W ⟪main_v63⟫ = W ⟪main_v63⟫ := by after_results_simp
theorem c3_arg0 (W : Valuation τ sig (Elt F)) : after ops3 W ⟪main_arg0⟫ = W ⟪main_arg0⟫ := by after_results_simp
theorem c3_arg1 (W : Valuation τ sig (Elt F)) : after ops3 W ⟪main_arg1⟫ = W ⟪main_arg1⟫ := by after_results_simp
theorem c3_arg2 (W : Valuation τ sig (Elt F)) : after ops3 W ⟪main_arg2⟫ = W ⟪main_arg2⟫ := by after_results_simp
theorem c3_arg3 (W : Valuation τ sig (Elt F)) : after ops3 W ⟪main_arg3⟫ = W ⟪main_arg3⟫ := by after_results_simp
theorem c3_arg4 (W : Valuation τ sig (Elt F)) : after ops3 W ⟪main_arg4⟫ = W ⟪main_arg4⟫ := by after_results_simp
theorem c3_arg5 (W : Valuation τ sig (Elt F)) : after ops3 W ⟪main_arg5⟫ = W ⟪main_arg5⟫ := by after_results_simp
theorem c3_arg6 (W : Valuation τ sig (Elt F)) : after ops3 W ⟪main_arg6⟫ = W ⟪main_arg6⟫ := by after_results_simp

theorem c4_v65 (W : Valuation τ sig (Elt F)) : after ops4 W ⟪main_v65⟫ = Spec.eluRel (W ⟪main_v63⟫) := by after_results_simp <;> (try simp only [TRef.ofBuf, TRef.toBuf, cast_eq]) <;> rfl
theorem c4_v64 (W : Valuation τ sig (Elt F)) : after ops4 W ⟪main_v64⟫ = W ⟪main_v64⟫ := by after_results_simp
theorem c4_arg0 (W : Valuation τ sig (Elt F)) : after ops4 W ⟪main_arg0⟫ = W ⟪main_arg0⟫ := by after_results_simp
theorem c4_arg1 (W : Valuation τ sig (Elt F)) : after ops4 W ⟪main_arg1⟫ = W ⟪main_arg1⟫ := by after_results_simp
theorem c4_arg2 (W : Valuation τ sig (Elt F)) : after ops4 W ⟪main_arg2⟫ = W ⟪main_arg2⟫ := by after_results_simp
theorem c4_arg3 (W : Valuation τ sig (Elt F)) : after ops4 W ⟪main_arg3⟫ = W ⟪main_arg3⟫ := by after_results_simp
theorem c4_arg4 (W : Valuation τ sig (Elt F)) : after ops4 W ⟪main_arg4⟫ = W ⟪main_arg4⟫ := by after_results_simp
theorem c4_arg5 (W : Valuation τ sig (Elt F)) : after ops4 W ⟪main_arg5⟫ = W ⟪main_arg5⟫ := by after_results_simp
theorem c4_arg6 (W : Valuation τ sig (Elt F)) : after ops4 W ⟪main_arg6⟫ = W ⟪main_arg6⟫ := by after_results_simp

/-- The whole line, piece after piece. -/
theorem after_ops (V : Valuation τ sig (Elt F)) : after ops V = after ops4 (after ops3 (after ops2 (after ops1 (after ops0 V)))) := by
  simp only [ops, after_append]

theorem arg0_eq (V : Valuation τ sig (Elt F)) : after ops V ⟪main_arg0⟫ = V ⟪main_arg0⟫ := by
  rw [after_ops, c4_arg0, c3_arg0, c2_arg0, c1_arg0, c0_arg0]
theorem arg1_eq (V : Valuation τ sig (Elt F)) : after ops V ⟪main_arg1⟫ = V ⟪main_arg1⟫ := by
  rw [after_ops, c4_arg1, c3_arg1, c2_arg1, c1_arg1, c0_arg1]
theorem arg2_eq (V : Valuation τ sig (Elt F)) : after ops V ⟪main_arg2⟫ = V ⟪main_arg2⟫ := by
  rw [after_ops, c4_arg2, c3_arg2, c2_arg2, c1_arg2, c0_arg2]
theorem arg3_eq (V : Valuation τ sig (Elt F)) : after ops V ⟪main_arg3⟫ = V ⟪main_arg3⟫ := by
  rw [after_ops, c4_arg3, c3_arg3, c2_arg3, c1_arg3, c0_arg3]
theorem arg4_eq (V : Valuation τ sig (Elt F)) : after ops V ⟪main_arg4⟫ = V ⟪main_arg4⟫ := by
  rw [after_ops, c4_arg4, c3_arg4, c2_arg4, c1_arg4, c0_arg4]
theorem arg5_eq (V : Valuation τ sig (Elt F)) : after ops V ⟪main_arg5⟫ = V ⟪main_arg5⟫ := by
  rw [after_ops, c4_arg5, c3_arg5, c2_arg5, c1_arg5, c0_arg5]
theorem arg6_eq (V : Valuation τ sig (Elt F)) : after ops V ⟪main_arg6⟫ = V ⟪main_arg6⟫ := by
  rw [after_ops, c4_arg6, c3_arg6, c2_arg6, c1_arg6, c0_arg6]

/-- The first result is the entity rows of the arguments. -/
theorem out64_eq (V : Valuation τ sig (Elt F)) : after ops V ⟪main_v64⟫ = Spec.outEnt (V ⟪main_arg0⟫) (V ⟪main_arg1⟫) (V ⟪main_arg2⟫) (V ⟪main_arg3⟫) (V ⟪main_arg4⟫) (V ⟪main_arg5⟫) (V ⟪main_arg6⟫) := by
  rw [after_ops, c4_v64, c3_v64, c2_v52, c1_v47, c1_v49, c1_v42, c1_cst7, c0_v1, c0_v12, c0_v19, c0_v26, c0_arg3, c0_arg4, c0_arg5, c0_arg6]
  rfl

/-- The second result is the relation rows of the arguments. -/
theorem out65_eq (V : Valuation τ sig (Elt F)) : after ops V ⟪main_v65⟫ = Spec.outRel (V ⟪main_arg0⟫) (V ⟪main_arg1⟫) (V ⟪main_arg2⟫) (V ⟪main_arg3⟫) (V ⟪main_arg4⟫) (V ⟪main_arg5⟫) (V ⟪main_arg6⟫) := by
  rw [after_ops, c4_v65, c3_v63, c2_v63, c1_v5, c1_v44, c0_v5, c0_v12, c0_v19, c0_v26, c0_arg3, c0_arg4, c0_arg5, c0_arg6]
  rfl

/-- On every device, for any float values, from any memory with zero counters: every weakly fair execution of @main
    terminates with the two results at the entity rows and the relation rows of the arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = Cert.Spec.outEnt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v65) = Cert.Spec.outRel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v64).trans (out64_eq _), (h c main_v65).trans (out65_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_all m ρ)

end Cert.ReferenceIdeal.Run

end
-- ==== Proof.lean ====
/-
  The certificate: a kernel that, for each of 400000 edges of a knowledge graph, turns the edge's three gathered
  embeddings into a hidden row c = h · W' + b, an attention weight a = exp(leaky(c · w2' + b2)) and a weighted row a · c,
  against the plain array program that computes the same two arrays with two matrix products. Both programs then sum
  the weighted rows and the weights per source entity and per relation, divide, and apply elu.

  Frames: each program runs to its end without a fault and leaves its seven arguments as they were (the two kernel
  programs through the pipeline's launch with the body run once at a symbolic grid point; the array program as a
  straight line of array operations).

  Equality of the results over the extended reals: the kernel's 100 blocks of 4000 edges tile the two output arrays, and
  entry by entry a block holds the same formula the array program computes for that edge: the product into a zero
  accumulator is the sum of products, the lane sum kept as a column is the second product, the change of float format
  is the identity. The host lines before and after the kernel are the array program's own, so the two results are the
  same functions of the inputs. Finiteness of the inputs is never used: no distributive law is needed.
-/
import proofs.«175567_j49082886259211_1_alg».proof.Defs
import proofs.«175567_j49082886259211_1_alg».proof.Proof.Gen.Kernel
import proofs.«175567_j49082886259211_1_alg».proof.Proof.Gen.KernelIdeal
import proofs.«175567_j49082886259211_1_alg».proof.Proof.Gen.ReferenceIdeal
import proofs.«175567_j49082886259211_1_alg».proof.Proof.Gen.Pre_finite_inputs
import proofs.«175567_j49082886259211_1_alg».proof.Proof.KFrame
import proofs.«175567_j49082886259211_1_alg».proof.Proof.KIFrame
import proofs.«175567_j49082886259211_1_alg».proof.Proof.KIValue
import proofs.«175567_j49082886259211_1_alg».proof.Proof.KIOut
import proofs.«175567_j49082886259211_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2.2) (Cert.ReferenceIdeal.Run.run (F := Ideal) m ρ)

theorem preserves : Cert.preserves_Kernel_KernelIdeal := trivial

/-- Both idealized programs end with the specification's two arrays of their (agreeing) inputs. -/
theorem algebraic : Cert.algebraic_KernelIdeal_ReferenceIdeal := by
  intro m ρ m' ρ' _ hagree
  refine ⟨_, _, Cert.KernelIdeal.Out.run_values m ρ (Cert.KernelIdeal.Val.final6 m) (Cert.KernelIdeal.Val.final5 m), ?_⟩
  refine (θ_run Cert.ReferenceIdeal.defs _ _).mono (fun _ h c => ⟨(h c).1.trans ?_, (h c).2.1.trans ?_, (h c).2.2⟩)
    (Cert.ReferenceIdeal.Run.run (F := Ideal) m' ρ')
  · rw [(hagree c).1, (hagree c).2.1, (hagree c).2.2.1, (hagree c).2.2.2.1, (hagree c).2.2.2.2.1, (hagree c).2.2.2.2.2.1, (hagree c).2.2.2.2.2.2]
  · rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
